-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S401x1 : S_.BroadcastsInDim S401x1 (![] : Fin 0 → Fin S401x1.rank)
  reducesTo_S401x1_S_d0_1 : S401x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S400x400 .f32) (main_arg9 : FVec F S400 .f32) (main_arg10 : FVec F S401x1 .f32) (main_arg11 : FVec F S1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S401x1 .f32 := Host.absf main_arg10
  let main_cst_16 : FVec F S_ .f32 := constant S_ .f32 0x7F800000#32
  let main_v45 : FVec F S401x1 .f32 := broadcastInDim S401x1 ![] bcast_S_S401x1 main_cst_16
  let main_v46 : IVec S401x1 1 := cmpf .olt main_v44 main_v45
  let main_c_17 : IVec S_ 1 := constantI S_ 1 1#1
  let main_v47 : IVec S_ 1 := (fun x v => Host.reduce IntOp.andi x v reducesTo_S401x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) (main_v13 : IVec S_ 1) (main_v16 : IVec S26x100000x1 1) : IVec S_ 1 :=
  let main_c_5 : IVec S_ 1 := constantI S_ 1 1#1
  let main_v17 : IVec S_ 1 := (fun x v => Host.reduce IntOp.andi x v reducesTo_S26x100000x1_S_d0_1_2 h_S_) main_v16 main_c_5
  let main_v18 : IVec S_ 1 := andi main_v13 main_v17
  let main_v19 : FVec F S26x100000x16 .f32 := Host.absf main_arg5
  let main_cst_6 : FVec F S_ .f32 := constant S_ .f32 0x7F800000#32
  let main_v20 : FVec F S26x100000x16 .f32 := broadcastInDim S26x100000x16 ![] bcast_S_S26x100000x16 main_cst_6
  let main_v21 : IVec S26x100000x16 1 := cmpf .olt main_v19 main_v20
  let main_c_7 : IVec S_ 1 := constantI S_ 1 1#1
  let main_v22 : IVec S_ 1 := (fun x v => Host.reduce IntOp.andi x v reducesTo_S26x100000x16_S_d0_1_2 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S16384x13 .f32) (main_arg1 : IVec S16384x26 32) (main_arg2 : FVec F S13x1 .f32) (main_arg3 : FVec F S1 .f32) (main_arg4 : FVec F S26x100000x1 .f32) (main_arg5 : FVec F S26x100000x16 .f32) (main_arg6 : FVec F S429x400 .f32) (main_arg7 : FVec F S400 .f32) (main_arg8 : FVec F S400x400 .f32) (main_arg9 : FVec F S400 .f32) (main_arg10 : FVec F S401x1 .f32) (main_arg11 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S13x1 .f32 := Host.absf main_arg2
  let main_cst_0 : FVec F S_ .f32 := constant S_ .f32 0x7F800000#32
  let main_v5 : FVec F S13x1 .f32 := broadcastInDim S13x1 ![] bcast_S_S13x1 main_cst_0
  let main_v6 : IVec S13x1 1 := cmpf .olt main_v4 main_v5
  let main_c_1 : IVec S_ 1 := constantI S_ 1 1#1
  let main_v7 : IVec S_ 1 := (fun x v => Host.reduce IntOp.andi x v reducesTo_S13x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S26x100000x1 .f32 := Host.absf main_arg4
  let main_cst_4 : FVec F S_ .f32 := constant S_ .f32 0x7F800000#32
  let main_v15 : FVec F S26x100000x1 .f32 := broadcastInDim S26x100000x1 ![] bcast_S_S26x100000x1 main_cst_4
  let main_v16 : IVec S26x100000x1 1 := cmpf .olt main_v14 main_v15
  fn_part1 (F := F) main_arg5 main_arg6 main_arg7 main_arg8 main_arg9 main_arg10 main_arg11 main_v13 main_v16
-- ==== Kernel.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩
abbrev S26x16384 : Shape := ⟨2, ![26, 16384]⟩
abbrev S26x16384x1 : Shape := ⟨3, ![26, 16384, 1]⟩
abbrev S16384x26x1 : Shape := ⟨3, ![16384, 26, 1]⟩
abbrev S26x16384x16 : Shape := ⟨3, ![26, 16384, 16]⟩
abbrev S16384x26x16 : Shape := ⟨3, ![16384, 26, 16]⟩
abbrev S16384x416 : Shape := ⟨2, ![16384, 416]⟩
abbrev S16x16 : Shape := ⟨2, ![16, 16]⟩
abbrev S1x16x1x16 : Shape := ⟨4, ![1, 16, 1, 16]⟩
abbrev S26x16x1x16 : Shape := ⟨4, ![26, 16, 1, 16]⟩
abbrev S416x16 : Shape := ⟨2, ![416, 16]⟩
abbrev S13x400 : Shape := ⟨2, ![13, 400]⟩
abbrev S416x400 : Shape := ⟨2, ![416, 400]⟩
abbrev S1x1 : Shape := ⟨2, ![1, 1]⟩
abbrev S400x1 : Shape := ⟨2, ![400, 1]⟩
abbrev S1x400 : Shape := ⟨2, ![1, 400]⟩
abbrev S16384x1 : Shape := ⟨2, ![16384, 1]⟩
abbrev S1024x13 : Shape := ⟨2, ![1024, 13]⟩
abbrev S1024x26 : Shape := ⟨2, ![1024, 26]⟩
abbrev S1024x416 : Shape := ⟨2, ![1024, 416]⟩
abbrev S1024x1 : Shape := ⟨2, ![1024, 1]⟩
abbrev S1024 : Shape := ⟨1, ![1024]⟩
abbrev S1024x16 : Shape := ⟨2, ![1024, 16]⟩
abbrev S1024x400 : Shape := ⟨2, ![1024, 400]⟩

abbrev nBuf : Space → Nat
  | .hbm => 55
  | .vmem => 19
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S26x16384, .i32⟩
  | .hbm, ⟨20, _⟩ => ⟨S26x16384x1, .i32⟩
  | .hbm, ⟨21, _⟩ => ⟨S26x16384x1, .f32⟩
  | .hbm, ⟨22, _⟩ => ⟨S16384x26x1, .f32⟩
  | .hbm, ⟨23, _⟩ => ⟨S_, .i32⟩
  | .hbm, ⟨24, _⟩ => ⟨S16384x26, .i32⟩
  | .hbm, ⟨25, _⟩ => ⟨S16384x26, .i1⟩
  | .hbm, ⟨26, _⟩ => ⟨S_, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S26x16384, .i32⟩
  | .hbm, ⟨31, _⟩ => ⟨S26x16384x1, .i32⟩
  | .hbm, ⟨32, _⟩ => ⟨S26x16384x16, .f32⟩
  | .hbm, ⟨33, _⟩ => ⟨S16384x26x16, .f32⟩
  | .hbm, ⟨34, _⟩ => ⟨S16384x26, .f32⟩
  | .hbm, ⟨35, _⟩ => ⟨S16384x416, .f32⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S1x16x1x16, .f32⟩
  | .hbm, ⟨44, _⟩ => ⟨S26x16x1x16, .f32⟩
  | .hbm, ⟨45, _⟩ => ⟨S416x16, .f32⟩
  | .hbm, ⟨46, _⟩ => ⟨S13x400, .f32⟩
  | .hbm, ⟨47, _⟩ => ⟨S416x400, .f32⟩
  | .hbm, ⟨48, _⟩ => ⟨S1x1, .f32⟩
  | .hbm, ⟨49, _⟩ => ⟨S400x1, .f32⟩
  | .hbm, ⟨50, _⟩ => ⟨S1x1, .f32⟩
  | .hbm, ⟨51, _⟩ => ⟨S1x400, .f32⟩
  | .hbm, ⟨52, _⟩ => ⟨S1x400, .f32⟩
  | .hbm, ⟨53, _⟩ => ⟨S1x1, .f32⟩
  | .hbm, ⟨54, _⟩ => ⟨S16384x1, .f32⟩
  | .local _ .vmem, ⟨0, _⟩ => ⟨S1024x13, .f32⟩
  | .local _ .vmem, ⟨1, _⟩ => ⟨S1024x13, .f32⟩
  | .local _ .vmem, ⟨2, _⟩ => ⟨S1024x26, .f32⟩
  | .local _ .vmem, ⟨3, _⟩ => ⟨S1024x26, .f32⟩
  | .local _ .vmem, ⟨4, _⟩ => ⟨S1024x416, .f32⟩
  | .local _ .vmem, ⟨5, _⟩ => ⟨S1024x416, .f32⟩
  | .local _ .vmem, ⟨6, _⟩ => ⟨S13x1, .f32⟩
  | .local _ .vmem, ⟨7, _⟩ => ⟨S1x1, .f32⟩
  | .local _ .vmem, ⟨8, _⟩ => ⟨S416x16, .f32⟩
  | .local _ .vmem, ⟨9, _⟩ => ⟨S13x400, .f32⟩
  | .local _ .vmem, ⟨10, _⟩ => ⟨S416x400, .f32⟩
  | .local _ .vmem, ⟨11, _⟩ => ⟨S1x400, .f32⟩
  | .local _ .vmem, ⟨12, _⟩ => ⟨S400x400, .f32⟩
  | .local _ .vmem, ⟨13, _⟩ => ⟨S1x400, .f32⟩
  | .local _ .vmem, ⟨14, _⟩ => ⟨S400x1, .f32⟩
  | .local _ .vmem, ⟨15, _⟩ => ⟨S1x1, .f32⟩
  | .local _ .vmem, ⟨16, _⟩ => ⟨S1x1, .f32⟩
  | .local _ .vmem, ⟨17, _⟩ => ⟨S1024x1, .f32⟩
  | .local _ .vmem, ⟨18, _⟩ => ⟨S1024x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S416x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S13x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S416x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x1_S16384x26x1_1_0_2 : S26x16384x1.Transposes [1, 0, 2] S16384x26x1
  transposes_S26x16384x16_S16384x26x16_1_0_2 : S26x16384x16.Transposes [1, 0, 2] S16384x26x16
  shapeCasts_S16384x26x1_S16384x26 : S16384x26x1.ShapeCasts S16384x26
  shapeCasts_S16384x26x16_S16384x416 : S16384x26x16.ShapeCasts S16384x416
  bcast_S_S16x16 : S_.BroadcastsInDim S16x16 (![] : Fin 0 → Fin S16x16.rank)
  shapeCasts_S16x16_S1x16x1x16 : S16x16.ShapeCasts S1x16x1x16
  bcast_S1x16x1x16_S26x16x1x16_0_1_2_3 : S1x16x1x16.BroadcastsInDim S26x16x1x16 (![0, 1, 2, 3] : Fin 4 → Fin S26x16x1x16.rank)
  shapeCasts_S26x16x1x16_S416x16 : S26x16x1x16.ShapeCasts S416x16
  slices_S429x400_S13x400_0_0 : S429x400.Slices ![0, 0] S13x400
  slices_S429x400_S416x400_13_0 : S429x400.Slices ![13, 0] S416x400
  slices_S401x1_S1x1_0_0 : S401x1.Slices ![0, 0] S1x1
  slices_S401x1_S400x1_1_0 : S401x1.Slices ![1, 0] S400x1
  shapeCasts_S1_S1x1 : S1.ShapeCasts S1x1
  shapeCasts_S400_S1x400 : S400.ShapeCasts S1x400
  inb_S1024x13_S1024x13_0_0 : ∀ a, (![0, 0] : Fin 2 → Nat) a + S1024x13.size a ≤ S1024x13.size a
  h_S1024x13 : 0 < S1024x13.numel
  inb_S1024x26_S1024x26_0_0 : ∀ a, (![0, 0] : Fin 2 → Nat) a + S1024x26.size a ≤ S1024x26.size a
  h_S1024x26 : 0 < S1024x26.numel
  shapeCasts_S1024x26_S1024x26 : S1024x26.ShapeCasts S1024x26
  inb_S1024x416_S1024x416_0_0 : ∀ a, (![0, 0] : Fin 2 → Nat) a + S1024x416.size a ≤ S1024x416.size a
  h_S1024x416 : 0 < S1024x416.numel
  shapeCasts_S1024x416_S1024x416 : S1024x416.ShapeCasts S1024x416
  inb_S13x1_S13x1_0_0 : ∀ a, (![0, 0] : Fin 2 → Nat) a + S13x1.size a ≤ S13x1.size a
  h_S13x1 : 0 < S13x1.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  reduces_S1024x26_S1024 : S1024x26.Reduces [1] S1024
  shapeCasts_S1024_S1024x1 : S1024.ShapeCasts S1024x1
  inb_S416x16_S416x16_0_0 : ∀ a, (![0, 0] : Fin 2 → Nat) a + S416x16.size a ≤ S416x16.size a
  h_S416x16 : 0 < S416x16.numel
  shapeCasts_S416x16_S416x16 : S416x16.ShapeCasts S416x16
  reduces_S1024x16_S1024 : S1024x16.Reduces [1] S1024
  inb_S13x400_S13x400_0_0 : ∀ a, (![0, 0] : Fin 2 → Nat) a + S13x400.size a ≤ S13x400.size a
  h_S13x400 : 0 < S13x400.numel
  shapeCasts_S13x400_S13x400 : S13x400.ShapeCasts S13x400
  inb_S416x400_S416x400_0_0 : ∀ a, (![0, 0] : Fin 2 → Nat) a + S416x400.size a ≤ S416x400.size a
  h_S416x400 : 0 < S416x400.numel
  shapeCasts_S416x400_S416x400 : S416x400.ShapeCasts S416x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S1024x400 : S1x400.Broadcasts S1024x400
  inb_S400x400_S400x400_0_0 : ∀ a, (![0, 0] : Fin 2 → Nat) a + S400x400.size a ≤ S400x400.size a
  h_S400x400 : 0 < S400x400.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1024x1_S1024x1_0_0 : ∀ a, (![0, 0] : Fin 2 → Nat) a + S1024x1.size a ≤ S1024x1.size a
  h_S1024x1 : 0 < S1024x1.numel
  gather_S26x100000x1_S26x16384x1_S26x16384x1_2_1_0_0_1_2_111_wf : GatherDims.WF S26x100000x1 S26x16384x1 S26x16384x1 [2] [1] [0] [1] [0] 2 ![1, 1, 1]
  gather_S26x100000x16_S26x16384x1_S26x16384x16_2_1_0_0_1_2_1116_wf : GatherDims.WF S26x100000x16 S26x16384x1 S26x16384x16 [2] [1] [0] [1] [0] 2 ![1, 1, 16]
  dot_S1024x13_S13x1_S1024x1_1_0_0_1_n_n_wf : DotDims.WF S1024x13 S13x1 S1024x1 [1] [0] [0] [1] [] []
  dot_S1024x416_S416x16_S1024x16_1_0_0_1_n_n_wf : DotDims.WF S1024x416 S416x16 S1024x16 [1] [0] [0] [1] [] []
  dot_S1024x13_S13x400_S1024x400_1_0_0_1_n_n_wf : DotDims.WF S1024x13 S13x400 S1024x400 [1] [0] [0] [1] [] []
  dot_S1024x416_S416x400_S1024x400_1_0_0_1_n_n_wf : DotDims.WF S1024x416 S416x400 S1024x400 [1] [0] [0] [1] [] []
  dot_S1024x400_S400x400_S1024x400_1_0_0_1_n_n_wf : DotDims.WF S1024x400 S400x400 S1024x400 [1] [0] [0] [1] [] []
  dot_S1024x400_S400x1_S1024x1_1_0_0_1_n_n_wf : DotDims.WF S1024x400 S400x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S16384x13.size a
  hwx0_0 : ∀ i : grid0.Coords, EltTy.bits .f32 = 32 ∨ (Rect.block (s := S16384x13) S1024x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x26.size a ≤ S16384x26.size a
  hwx0_1 : ∀ i : grid0.Coords, EltTy.bits .f32 = 32 ∨ (Rect.block (s := S16384x26) S1024x26.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x416.size a ≤ S16384x416.size a
  hwx0_2 : ∀ i : grid0.Coords, EltTy.bits .f32 = 32 ∨ (Rect.block (s := S16384x416) S1024x416.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .f32 = 32 ∨ (Rect.block (s := S13x1) S13x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S416x16.size a ≤ S416x16.size a
  hwx0_5 : ∀ i : grid0.Coords, EltTy.bits .f32 = 32 ∨ (Rect.block (s := S416x16) S416x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x400.size a ≤ S13x400.size a
  hwx0_6 : ∀ i : grid0.Coords, EltTy.bits .f32 = 32 ∨ (Rect.block (s := S13x400) S13x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S416x400.size a ≤ S416x400.size a
  hwx0_7 : ∀ i : grid0.Coords, EltTy.bits .f32 = 32 ∨ (Rect.block (s := S416x400) S416x400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x400.size a ≤ S1x400.size a
  hwx0_8 : ∀ i : grid0.Coords, EltTy.bits .f32 = 32 ∨ (Rect.block (s := S1x400) S1x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x400.size a ≤ S400x400.size a
  hwx0_9 : ∀ i : grid0.Coords, EltTy.bits .f32 = 32 ∨ (Rect.block (s := S400x400) S400x400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x400.size a ≤ S1x400.size a
  hwx0_10 : ∀ i : grid0.Coords, EltTy.bits .f32 = 32 ∨ (Rect.block (s := S1x400) S1x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400x1.size a ≤ S400x1.size a
  hwx0_11 : ∀ i : grid0.Coords, EltTy.bits .f32 = 32 ∨ (Rect.block (s := S400x1) S400x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S16384x1.size a
  hwx0_14 : ∀ i : grid0.Coords, EltTy.bits .f32 = 32 ∨ (Rect.block (s := S16384x1) S1024x1.size (cc0_transform_14 i) (hinb0_14 i)).WholeWords (EltTy.packing .f32)

variable [Facts₀]

def gather_S26x100000x1_S26x16384x1_S26x16384x1_2_1_0_0_1_2_111 : GatherDims S26x100000x1 S26x16384x1 S26x16384x1 where
  offsetDims := [2]
  collapsedSliceDims := [1]
  operandBatchingDims := [0]
  startIndicesBatchingDims := [0]
  startIndexMap := [1]
  indexVectorDim := 2
  sliceSizes := ![1, 1, 1]
  wf := gather_S26x100000x1_S26x16384x1_S26x16384x1_2_1_0_0_1_2_111_wf
def gather_S26x100000x16_S26x16384x1_S26x16384x16_2_1_0_0_1_2_1116 : GatherDims S26x100000x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf
def dot_S1024x13_S13x1_S1024x1_1_0_0_1_n_n : DotDims S1024x13 S13x1 S1024x1 where
  lhsContracting := [1]
  rhsContracting := [0]
  lhsNonContracting := [0]
  rhsNonContracting := [1]
  lhsBatch := []
  rhsBatch := []
  wf := dot_S1024x13_S13x1_S1024x1_1_0_0_1_n_n_wf
def dot_S1024x416_S416x16_S1024x16_1_0_0_1_n_n : DotDims S1024x416 S416x16 S1024x16 where
  lhsContracting := [1]
  rhsContracting := [0]
  lhsNonContracting := [0]
  rhsNonContracting := [1]
  lhsBatch := []
  rhsBatch := []
  wf := dot_S1024x416_S416x16_S1024x16_1_0_0_1_n_n_wf
def dot_S1024x13_S13x400_S1024x400_1_0_0_1_n_n : DotDims S1024x13 S13x400 S1024x400 where
  lhsContracting := [1]
  rhsContracting := [0]
  lhsNonContracting := [0]
  rhsNonContracting := [1]
  lhsBatch := []
  rhsBatch := []
  wf := dot_S1024x13_S13x400_S1024x400_1_0_0_1_n_n_wf
def dot_S1024x416_S416x400_S1024x400_1_0_0_1_n_n : DotDims S1024x416 S416x400 S1024x400 where
  lhsContracting := [1]
  rhsContracting := [0]
  lhsNonContracting := [0]
  rhsNonContracting := [1]
  lhsBatch := []
  rhsBatch := []
  wf := dot_S1024x416_S416x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S1024x400_S400x1_S1024x1_1_0_0_1_n_n : DotDims S1024x400 S400x1 S1024x1 where
  lhsContracting := [1]
  rhsContracting := [0]
  lhsNonContracting := [0]
  rhsNonContracting := [1]
  lhsBatch := []
  rhsBatch := []
  wf := dot_S1024x400_S400x1_S1024x1_1_0_0_1_n_n_wf

abbrev win0_0 : Pipeline.Window sig grid0 :=
  Pipeline.Window.ofSpec (Memref.whole main_arg0) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x416.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S416x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S13x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S416x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S400x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S400x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v37) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S13x1 : Shape := ⟨2, ![13, 1]⟩
abbrev S1 : Shape := ⟨1, ![1]⟩
abbrev S26x100000x1 : Shape := ⟨3, ![26, 100000, 1]⟩
abbrev S26x100000x16 : Shape := ⟨3, ![26, 100000, 16]⟩
abbrev S429x400 : Shape := ⟨2, ![429, 400]⟩
abbrev S400 : Shape := ⟨1, ![400]⟩
abbrev S400x400 : Shape := ⟨2, ![400, 400]⟩
abbrev S401x1 : Shape := ⟨2, ![401, 1]⟩
abbrev S_ : Shape := ⟨0, ![]⟩
abbrev S26x16384 : Shape := ⟨2, ![26, 16384]⟩
abbrev S26x16384x1 : Shape := ⟨3, ![26, 16384, 1]⟩
abbrev S16384x26x1 : Shape := ⟨3, ![16384, 26, 1]⟩
abbrev S16384x1 : Shape := ⟨2, ![16384, 1]⟩
abbrev S1x1 : Shape := ⟨2, ![1, 1]⟩
abbrev S26x16384x16 : Shape := ⟨3, ![26, 16384, 16]⟩
abbrev S16384x26x16 : Shape := ⟨3, ![16384, 26, 16]⟩
abbrev S16384x16 : Shape := ⟨2, ![16384, 16]⟩
abbrev S16384 : Shape := ⟨1, ![16384]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S16384x401 : Shape := ⟨2, ![16384, 401]⟩

abbrev nBuf : Space → Nat
  | .hbm => 76
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S13x1, .f32⟩
  | .hbm, ⟨3, _⟩ => ⟨S1, .f32⟩
  | .hbm, ⟨4, _⟩ => ⟨S26x100000x1, .f32⟩
  | .hbm, ⟨5, _⟩ => ⟨S26x100000x16, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S401x1, .f32⟩
  | .hbm, ⟨11, _⟩ => ⟨S1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S26x16384, .i32⟩
  | .hbm, ⟨20, _⟩ => ⟨S26x16384x1, .i32⟩
  | .hbm, ⟨21, _⟩ => ⟨S26x16384x1, .f32⟩
  | .hbm, ⟨22, _⟩ => ⟨S16384x26x1, .f32⟩
  | .hbm, ⟨23, _⟩ => ⟨S16384x1, .f32⟩
  | .hbm, ⟨24, _⟩ => ⟨S1x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .i32⟩
  | .hbm, ⟨31, _⟩ => ⟨S16384x26, .i32⟩
  | .hbm, ⟨32, _⟩ => ⟨S16384x26, .i1⟩
  | .hbm, ⟨33, _⟩ => ⟨S_, .i32⟩
  | .hbm, ⟨34, _⟩ => ⟨S16384x26, .i32⟩
  | .hbm, ⟨35, _⟩ => ⟨S16384x26, .i32⟩
  | .hbm, ⟨36, _⟩ => ⟨S16384x26, .i32⟩
  | .hbm, ⟨37, _⟩ => ⟨S26x16384, .i32⟩
  | .hbm, ⟨38, _⟩ => ⟨S26x16384x1, .i32⟩
  | .hbm, ⟨39, _⟩ => ⟨S26x16384x16, .f32⟩
  | .hbm, ⟨40, _⟩ => ⟨S16384x26x16, .f32⟩
  | .hbm, ⟨41, _⟩ => ⟨S_, .f32⟩
  | .hbm, ⟨42, _⟩ => ⟨S16384x16, .f32⟩
  | .hbm, ⟨43, _⟩ => ⟨S16384x26x16, .f32⟩
  | .hbm, ⟨44, _⟩ => ⟨S_, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x416, .f32⟩
  | .hbm, ⟨56, _⟩ => ⟨S16384x429, .f32⟩
  | .hbm, ⟨57, _⟩ => ⟨S16384x400, .f32⟩
  | .hbm, ⟨58, _⟩ => ⟨S1x400, .f32⟩
  | .hbm, ⟨59, _⟩ => ⟨S16384x400, .f32⟩
  | .hbm, ⟨60, _⟩ => ⟨S16384x400, .f32⟩
  | .hbm, ⟨61, _⟩ => ⟨S_, .f32⟩
  | .hbm, ⟨62, _⟩ => ⟨S16384x400, .f32⟩
  | .hbm, ⟨63, _⟩ => ⟨S16384x400, .f32⟩
  | .hbm, ⟨64, _⟩ => ⟨S16384x400, .f32⟩
  | .hbm, ⟨65, _⟩ => ⟨S1x400, .f32⟩
  | .hbm, ⟨66, _⟩ => ⟨S16384x400, .f32⟩
  | .hbm, ⟨67, _⟩ => ⟨S16384x400, .f32⟩
  | .hbm, ⟨68, _⟩ => ⟨S_, .f32⟩
  | .hbm, ⟨69, _⟩ => ⟨S16384x400, .f32⟩
  | .hbm, ⟨70, _⟩ => ⟨S16384x400, .f32⟩
  | .hbm, ⟨71, _⟩ => ⟨S16384x401, .f32⟩
  | .hbm, ⟨72, _⟩ => ⟨S16384x1, .f32⟩
  | .hbm, ⟨73, _⟩ => ⟨S1x1, .f32⟩
  | .hbm, ⟨74, _⟩ => ⟨S16384x1, .f32⟩
  | .hbm, ⟨75, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  transposes_S26x16384x1_S16384x26x1_1_0_2 : S26x16384x1.Transposes [1, 0, 2] S16384x26x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26x1_S16384x1_d1 : S16384x26x1.ReducesTo [1] S16384x1
  h_S_ : 0 < S_.numel
  transposes_S26x16384x16_S16384x26x16_1_0_2 : S26x16384x16.Transposes [1, 0, 2] S16384x26x16
  reducesTo_S16384x26x16_S16384x16_d1 : S16384x26x16.ReducesTo [1] S16384x16
  reducesTo_S16384x16_S16384_d1 : S16384x16.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x26x16_S16384x416 : S16384x26x16.ShapeCasts S16384x416
  concatenates_S16384x13_S16384x416_S16384x429_d1 : Shape.Concatenates [S16384x13, S16384x416] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  concatenates_S16384x1_S16384x400_S16384x401_d1 : Shape.Concatenates [S16384x1, S16384x400] S16384x401 1
  gather_S26x100000x1_S26x16384x1_S26x16384x1_2_1_0_0_1_2_111_wf : GatherDims.WF S26x100000x1 S26x16384x1 S26x16384x1 [2] [1] [0] [1] [0] 2 ![1, 1, 1]
  dot_S16384x13_S13x1_S16384x1_1_0_0_1_n_n_wf : DotDims.WF S16384x13 S13x1 S16384x1 [1] [0] [0] [1] [] []
  gather_S26x100000x16_S26x16384x1_S26x16384x16_2_1_0_0_1_2_1116_wf : GatherDims.WF S26x100000x16 S26x16384x1 S26x16384x16 [2] [1] [0] [1] [0] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x401_S401x1_S16384x1_1_0_0_1_n_n_wf : DotDims.WF S16384x401 S401x1 S16384x1 [1] [0] [0] [1] [] []

variable [Facts₀]

def gather_S26x100000x1_S26x16384x1_S26x16384x1_2_1_0_0_1_2_111 : GatherDims S26x100000x1 S26x16384x1 S26x16384x1 where
  offsetDims := [2]
  collapsedSliceDims := [1]
  operandBatchingDims := [0]
  startIndicesBatchingDims := [0]
  startIndexMap := [1]
  indexVectorDim := 2
  sliceSizes := ![1, 1, 1]
  wf := gather_S26x100000x1_S26x16384x1_S26x16384x1_2_1_0_0_1_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S26x16384x1_S26x16384x16_2_1_0_0_1_2_1116 : GatherDims S26x100000x16 S26x16384x1 S26x16384x16 where
  offsetDims := [2]
  collapsedSliceDims := [1]
  operandBatchingDims := [0]
  startIndicesBatchingDims := [0]
  startIndexMap := [1]
  indexVectorDim := 2
  sliceSizes := ![1, 1, 16]
  wf := gather_S26x100000x16_S26x16384x1_S26x16384x16_2_1_0_0_1_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x401_S401x1_S16384x1_1_0_0_1_n_n : DotDims S16384x401 S401x1 S16384x1 where
  lhsContracting := [1]
  rhsContracting := [0]
  lhsNonContracting := [0]
  rhsNonContracting := [1]
  lhsBatch := []
  rhsBatch := []
  wf := dot_S16384x401_S401x1_S16384x1_1_0_0_1_n_n_wf

class Facts : Prop extends Facts₀ where

variable [Facts]
-- ==== Proof.Spec.lean ====
/-
  The row function of a DeepFM forward pass over the extended reals, in two arrangements, and the
  array it defines.

  One batch row has 13 continuous features `c`, 26 first-order embedding entries `fs`, and 26 embedding
  vectors of length 16, `emb f e`. With `half` the f32 word of 0.5,

    fm  = ((Σ_k c k · w k + bc) + Σ_f fs f) + half · Σ_e ((Σ_f emb f e)² − Σ_f (emb f e)²)
    h1 j = max (Σ_{k<429} dnn k · W1 k j + b1 j) 0     where dnn = c followed by emb laid out row-major
    h2 j = max (Σ_i h1 i · W2 i j + b2 j) 0
    out  = Σ_{k<401} fus k · Wout k + bo               where fus = fm followed by h2

  (`rowG`). The other arrangement (`rowK`) takes the embedding already flattened to 416 entries, sums
  over fields by multiplying with a 0/1 selector matrix, and has the two long sums split where the
  concatenations join: 429 = 13 + 416 and 401 = 1 + 400.
-/
import Idealize.ShloMosaic.PureOps.Ideal
import Idealize.ShloMosaic.Lib.ValueIdx

noncomputable section

namespace Cert.DeepFM

open Idealize.ShloMosaic Idealize.ShloMosaic.ValueIdx
open scoped BigOperators

/-- The f32 word of one half, as an extended real. -/
def half : EReal := Ideal.ofBits .f32 0x3F000000#32

/-- The field-sum selector: entry (k, e) is one when flattened position `k` holds coordinate `e` of its
    embedding vector, zero otherwise. -/
def sel (k : Fin 416) (e : Fin 16) : EReal := if k.val % 16 = e.val then 1 else 0

/-- Position `k` of the flattened embedding row: field `k / 16`, coordinate `k % 16`. -/
def flat (emb : Fin 26 → Fin 16 → EReal) (k : Fin 416) : EReal :=
  emb ⟨k.val / 16, by have := k.isLt; omega⟩ ⟨k.val % 16, Nat.mod_lt _ (by decide)⟩

/-- The factorization-machine term of a row. -/
def fmRow (c : Fin 13 → EReal) (fs : Fin 26 → EReal) (emb : Fin 26 → Fin 16 → EReal) (w : Fin 13 → EReal) (bc : EReal) : EReal :=
  ((∑ k, c k * w k + bc) + ∑ f, fs f)
    + half * ∑ e, ((∑ f, emb f e) * (∑ f, emb f e) - ∑ f, emb f e * emb f e)

/-- The network's input row: the continuous features, then the flattened embeddings. -/
def dnnRow (c : Fin 13 → EReal) (emb : Fin 26 → Fin 16 → EReal) (k : Fin 429) : EReal :=
  if h : k.val < 13 then c ⟨k.val, h⟩ else flat emb ⟨k.val - 13, by have := k.isLt; omega⟩

/-- The row function with whole sums over the concatenated axes. -/
def rowG (c : Fin 13 → EReal) (fs : Fin 26 → EReal) (emb : Fin 26 → Fin 16 → EReal) (w : Fin 13 → EReal) (bc : EReal)
    (W1 : Fin 429 → Fin 400 → EReal) (b1 : Fin 400 → EReal) (W2 : Fin 400 → Fin 400 → EReal) (b2 : Fin 400 → EReal)
    (Wout : Fin 401 → EReal) (bo : EReal) : EReal :=
  let h1 : Fin 400 → EReal := fun j => max (∑ k, dnnRow c emb k * W1 k j + b1 j) 0
  let h2 : Fin 400 → EReal := fun j => max (∑ i, h1 i * W2 i j + b2 j) 0
  let fus : Fin 401 → EReal := fun k => if h : k.val = 0 then fmRow c fs emb w bc else h2 ⟨k.val - 1, by have := k.isLt; omega⟩
  ∑ k, fus k * Wout k + bo

/-- The row function as a tiled kernel computes it: field sums through a selector matrix `S`, the first
    layer's weights in two pieces, the output weights in two pieces. -/
def rowK (c : Fin 13 → EReal) (fs : Fin 26 → EReal) (e : Fin 416 → EReal) (w : Fin 13 → EReal) (bc : EReal)
    (S : Fin 416 → Fin 16 → EReal) (W1c : Fin 13 → Fin 400 → EReal) (W1e : Fin 416 → Fin 400 → EReal) (b1 : Fin 400 → EReal)
    (W2 : Fin 400 → Fin 400 → EReal) (b2 : Fin 400 → EReal) (Wh : Fin 400 → EReal) (Wfm bo : EReal) : EReal :=
  let se : Fin 16 → EReal := fun e' => ∑ k, e k * S k e'
  let sq : Fin 16 → EReal := fun e' => ∑ k, (e k * e k) * S k e'
  let fm : EReal := ((∑ k, c k * w k + bc) + ∑ f, fs f) + half * ∑ e', (se e' * se e' - sq e')
  let h1 : Fin 400 → EReal := fun j => max ((∑ k, c k * W1c k j + ∑ k, e k * W1e k j) + b1 j) 0
  let h2 : Fin 400 → EReal := fun j => max (∑ i, h1 i * W2 i j + b2 j) 0
  (fm * Wfm + ∑ j, h2 j * Wh j) + bo

/-- The result array: row `i 0` of the output is `rowG` of that row of the batch inputs and of the weights. -/
def G (cont : (⟨2, ![16384, 13]⟩ : Shape).Idx → EReal) (first3 : (⟨3, ![16384, 26, 1]⟩ : Shape).Idx → EReal)
    (emb3 : (⟨3, ![16384, 26, 16]⟩ : Shape).Idx → EReal) (w : (⟨2, ![13, 1]⟩ : Shape).Idx → EReal) (bc : (⟨1, ![1]⟩ : Shape).Idx → EReal)
    (W1 : (⟨2, ![429, 400]⟩ : Shape).Idx → EReal) (b1 : (⟨1, ![400]⟩ : Shape).Idx → EReal)
    (W2 : (⟨2, ![400, 400]⟩ : Shape).Idx → EReal) (b2 : (⟨1, ![400]⟩ : Shape).Idx → EReal)
    (Wout : (⟨2, ![401, 1]⟩ : Shape).Idx → EReal) (bout : (⟨1, ![1]⟩ : Shape).Idx → EReal) :
    (⟨2, ![16384, 1]⟩ : Shape).Idx → EReal := fun i =>
  rowG (fun k => cont (ix2 (i 0) k)) (fun f => first3 (ix3 (i 0) f 0)) (fun f e => emb3 (ix3 (i 0) f e))
    (fun k => w (ix2 k 0)) (bc (ix1 0)) (fun k j => W1 (ix2 k j)) (fun j => b1 (ix1 j))
    (fun a j => W2 (ix2 a j)) (fun j => b2 (ix1 j)) (fun k => Wout (ix2 k 0)) (bout (ix1 0))

end Cert.DeepFM

end
-- ==== Proof.SpecLaw.lean ====
/-
  The two arrangements of the DeepFM row function agree on the extended reals.

  Three facts, none of which needs finiteness: multiplying by a 0/1 selector and summing over the 416
  flattened positions is summing over the 26 fields (x · 1 = x, x · 0 = 0 and 0 is neutral for + on every
  extended real); a sum over 429 = 13 + 416 positions splits where the concatenation joins; a sum over
  401 = 1 + 400 positions is its first term plus the rest.
-/
import proofs.«107994_j21732534518459_1_alg».proof.Proof.Spec
import Mathlib.Algebra.BigOperators.Fin
import Mathlib.Logic.Equiv.Fin.Basic

noncomputable section

namespace Cert.DeepFM

open scoped BigOperators

/-- Summing a function of (field, coordinate) against the selector's column `e` over the flattened
    positions leaves the sum over the fields at coordinate `e`. -/
theorem sum_flat_sel (g : Fin 26 → Fin 16 → EReal) (e : Fin 16) :
    ∑ k : Fin 416, flat g k * sel k e = ∑ f : Fin 26, g f e := by
  have hk : ∀ (a : Fin 26) (b : Fin 16), (finProdFinEquiv (a, b) : Fin (26 * 16)).val = b.val + 16 * a.val := fun _ _ => rfl
  rw [← Equiv.sum_comp (finProdFinEquiv (m := 26) (n := 16)) (fun k : Fin 416 => flat g k * sel k e), Fintype.sum_prod_type]
  refine Finset.sum_congr rfl fun a _ => ?_
  have hterm : ∀ b : Fin 16, flat g (finProdFinEquiv (a, b)) * sel (finProdFinEquiv (a, b)) e = if b = e then g a e else 0 := by
    intro b
    have h1 : (b.val + 16 * a.val) / 16 = a.val := by have := b.isLt; omega
    have h2 : (b.val + 16 * a.val) % 16 = b.val := by have := b.isLt; omega
    have hf : flat g (finProdFinEquiv (a, b)) = g a b := by
      unfold flat
      congr 1 <;> apply Fin.ext <;> simp only [hk] <;> assumption
    have hs : sel (finProdFinEquiv (a, b)) e = if b = e then 1 else 0 := by
      unfold sel
      rw [hk, h2]
      by_cases hbe : b = e
      · rw [if_pos hbe, if_pos (congrArg Fin.val hbe)]
      · rw [if_neg hbe, if_neg (fun h => hbe (Fin.ext h))]
    rw [hf, hs]
    by_cases hbe : b = e
    · rw [if_pos hbe, if_pos hbe, mul_one, hbe]
    · rw [if_neg hbe, if_neg hbe, mul_zero]
  rw [Finset.sum_congr rfl fun b _ => hterm b, Finset.sum_ite_eq' Finset.univ e, if_pos (Finset.mem_univ e)]

/-- The squares go through the selector the same way: position `k`'s square is the square of its entry. -/
theorem sum_flat_sq_sel (g : Fin 26 → Fin 16 → EReal) (e : Fin 16) :
    ∑ k : Fin 416, (flat g k * flat g k) * sel k e = ∑ f : Fin 26, g f e * g f e := by
  have := sum_flat_sel (fun f e' => g f e' * g f e') e
  simpa only [flat] using this

/-- The first layer's sum over the concatenated row splits into the continuous part and the embedding part. -/
theorem sum_dnn_split (c : Fin 13 → EReal) (emb : Fin 26 → Fin 16 → EReal) (W : Fin 429 → EReal) :
    ∑ k : Fin 429, dnnRow c emb k * W k
      = ∑ k : Fin 13, c k * W ⟨k.val, by have := k.isLt; omega⟩ + ∑ k : Fin 416, flat emb k * W ⟨13 + k.val, by have := k.isLt; omega⟩ := by
  rw [Fin.sum_univ_add (a := 13) (b := 416) (fun k : Fin 429 => dnnRow c emb k * W k)]
  refine congrArg₂ (· + ·) (Finset.sum_congr rfl fun k _ => ?_) (Finset.sum_congr rfl fun k _ => ?_)
  · have hlt : (Fin.castAdd 416 k : Fin (13 + 416)).val < 13 := k.isLt
    unfold dnnRow
    rw [dif_pos hlt]
    rfl
  · have hge : ¬ (Fin.natAdd 13 k : Fin (13 + 416)).val < 13 := by simp [Fin.natAdd]
    unfold dnnRow
    rw [dif_neg hge]
    congr 2
    apply Fin.ext
    simp [Fin.natAdd]

/-- The output sum over the fused row is its first term, the factorization-machine term times its weight, plus
    the hidden layer's sum. -/
theorem sum_fus_split (fm : EReal) (h2 : Fin 400 → EReal) (W : Fin 401 → EReal) :
    ∑ k : Fin 401, (if h : k.val = 0 then fm else h2 ⟨k.val - 1, by have := k.isLt; omega⟩) * W k
      = fm * W ⟨0, by decide⟩ + ∑ j : Fin 400, h2 j * W ⟨1 + j.val, by have := j.isLt; omega⟩ := by
  rw [Fin.sum_univ_succ (n := 400)]
  refine congrArg₂ (· + ·) rfl (Finset.sum_congr rfl fun j _ => ?_)
  have hne : ¬ (j.succ : Fin 401).val = 0 := by simp
  rw [dif_neg hne]
  congr 2
  all_goals first
    | omega
    | (apply Fin.ext; simp only [Fin.val_succ]; omega)
    | (simp only [Fin.val_succ]; omega)

/-- The tiled arrangement, fed the flattened embeddings, the 0/1 selector and the two weight matrices cut where the
    concatenations join, is the row function. -/
theorem rowK_eq_rowG (c : Fin 13 → EReal) (fs : Fin 26 → EReal) (emb : Fin 26 → Fin 16 → EReal) (w : Fin 13 → EReal) (bc : EReal)
    (W1 : Fin 429 → Fin 400 → EReal) (b1 : Fin 400 → EReal) (W2 : Fin 400 → Fin 400 → EReal) (b2 : Fin 400 → EReal)
    (Wout : Fin 401 → EReal) (bo : EReal) :
    rowK c fs (flat emb) w bc sel (fun k j => W1 ⟨k.val, by have := k.isLt; omega⟩ j)
        (fun k j => W1 ⟨13 + k.val, by have := k.isLt; omega⟩ j) b1 W2 b2
        (fun j => Wout ⟨1 + j.val, by have := j.isLt; omega⟩) (Wout ⟨0, by decide⟩) bo
      = rowG c fs emb w bc W1 b1 W2 b2 Wout bo := by
  unfold rowK rowG fmRow
  simp only [sum_flat_sel, sum_flat_sq_sel]
  refine Eq.trans ?_ (congrArg (· + bo) (sum_fus_split _
    (fun j => max (∑ i, max (∑ k, dnnRow c emb k * W1 k i + b1 i) 0 * W2 i j + b2 j) 0) Wout).symm)
  simp only [sum_dnn_split]

end Cert.DeepFM

end
-- ==== Proof.KPayload.lean ====
/-
  The kernel body's one stored value, read at a row.

  The body multiplies through the matrix unit seven times, every time into a zero accumulator, so at the extended
  reals each product entry is the plain sum over the contracted axis; the two lane reductions are sums over 26 and
  16 lanes; every change of float format is the identity. Read at row `p` of the block, the stored column is the
  tiled row function `DeepFM.rowK` of row `p` of the three batch blocks and of the weight blocks.
-/
import proofs.«107994_j21732534518459_1_alg».proof.Proof.Gen.KernelIdeal.Skeleton
import proofs.«107994_j21732534518459_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### The 1024x13 by 13x1 product -/

private theorem lhs_13x1_0 (i : S1024x1.Idx) (q : dot_S1024x13_S13x1_S1024x1_1_0_0_1_n_n.contr.Idx) :
    (dot_S1024x13_S13x1_S1024x1_1_0_0_1_n_n.lhsIdx i q 0).val = (i 0).val := by
  unfold DotDims.lhsIdx
  rw [dif_neg (show ¬(0 : Fin S1024x13.rank) ∈ dot_S1024x13_S13x1_S1024x1_1_0_0_1_n_n.lhsBatch by decide), dif_pos (show (0 : Fin S1024x13.rank) ∈ dot_S1024x13_S13x1_S1024x1_1_0_0_1_n_n.lhsNonContracting by decide)]
  rfl
private theorem lhs_13x1_1 (i : S1024x1.Idx) (q : dot_S1024x13_S13x1_S1024x1_1_0_0_1_n_n.contr.Idx) :
    (dot_S1024x13_S13x1_S1024x1_1_0_0_1_n_n.lhsIdx i q 1).val = (q ⟨0, by decide⟩).val :=
  dot_S1024x13_S13x1_S1024x1_1_0_0_1_n_n.lhsIdx_val_of_single rfl i q
private theorem rhs_13x1_0 (i : S1024x1.Idx) (q : dot_S1024x13_S13x1_S1024x1_1_0_0_1_n_n.contr.Idx) :
    (dot_S1024x13_S13x1_S1024x1_1_0_0_1_n_n.rhsIdx i q 0).val = (q ⟨0, by decide⟩).val :=
  dot_S1024x13_S13x1_S1024x1_1_0_0_1_n_n.rhsIdx_val_of_single rfl i q
private theorem rhs_13x1_1 (i : S1024x1.Idx) (q : dot_S1024x13_S13x1_S1024x1_1_0_0_1_n_n.contr.Idx) :
    (dot_S1024x13_S13x1_S1024x1_1_0_0_1_n_n.rhsIdx i q 1).val = (i 1).val := by
  unfold DotDims.rhsIdx
  rw [dif_neg (show ¬(1 : Fin S13x1.rank) ∈ dot_S1024x13_S13x1_S1024x1_1_0_0_1_n_n.rhsBatch by decide), dif_pos (show (1 : Fin S13x1.rank) ∈ dot_S1024x13_S13x1_S1024x1_1_0_0_1_n_n.rhsNonContracting by decide)]
  rfl

/-- Into the zero accumulator the product's entry (p, j) is the sum over the 13 contracted positions. -/
private theorem mm_13x1 (a : FVec Ideal S1024x13 .f32) (b : FVec Ideal S13x1 .f32) (p : Fin 1024) (j : Fin 1) :
    matmul (F := Ideal) dot_S1024x13_S13x1_S1024x1_1_0_0_1_n_n none (truncf .bf16 a bitsLt_bf16_f32) (truncf .bf16 b bitsLt_bf16_f32)
        (constant S1024x1 .f32 0x00000000#32) (ix2 p j)
      = ∑ k : Fin 13, a (ix2 p k) * b (ix2 k j) := by
  refine (Ideal.matmul_constant_zero_apply dot_S1024x13_S13x1_S1024x1_1_0_0_1_n_n none _ _ (ix2 p j)).trans ?_
  rw [← Equiv.sum_comp (contrEquiv1 dot_S1024x13_S13x1_S1024x1_1_0_0_1_n_n 13 rfl rfl).symm]
  refine Finset.sum_congr rfl fun k _ => ?_
  have hk := contrEquiv1_symm_val dot_S1024x13_S13x1_S1024x1_1_0_0_1_n_n 13 rfl rfl k
  have el : dot_S1024x13_S13x1_S1024x1_1_0_0_1_n_n.lhsIdx (ix2 p j) ((contrEquiv1 dot_S1024x13_S13x1_S1024x1_1_0_0_1_n_n 13 rfl rfl).symm k) = ix2 p k := funext fun c => Fin.ext (by
    match c with
    | ⟨0, _⟩ => exact lhs_13x1_0 _ _
    | ⟨1, _⟩ => exact (lhs_13x1_1 _ _).trans hk)
  have er : dot_S1024x13_S13x1_S1024x1_1_0_0_1_n_n.rhsIdx (ix2 p j) ((contrEquiv1 dot_S1024x13_S13x1_S1024x1_1_0_0_1_n_n 13 rfl rfl).symm k) = ix2 k j := funext fun c => Fin.ext (by
    match c with
    | ⟨0, _⟩ => exact (rhs_13x1_0 _ _).trans hk
    | ⟨1, _⟩ => exact rhs_13x1_1 _ _)
  rw [el, er]
  rfl

/-! ### The 1024x416 by 416x16 product -/

private theorem lhs_416x16_0 (i : S1024x16.Idx) (q : dot_S1024x416_S416x16_S1024x16_1_0_0_1_n_n.contr.Idx) :
    (dot_S1024x416_S416x16_S1024x16_1_0_0_1_n_n.lhsIdx i q 0).val = (i 0).val := by
  unfold DotDims.lhsIdx
  rw [dif_neg (show ¬(0 : Fin S1024x416.rank) ∈ dot_S1024x416_S416x16_S1024x16_1_0_0_1_n_n.lhsBatch by decide), dif_pos (show (0 : Fin S1024x416.rank) ∈ dot_S1024x416_S416x16_S1024x16_1_0_0_1_n_n.lhsNonContracting by decide)]
  rfl
private theorem lhs_416x16_1 (i : S1024x16.Idx) (q : dot_S1024x416_S416x16_S1024x16_1_0_0_1_n_n.contr.Idx) :
    (dot_S1024x416_S416x16_S1024x16_1_0_0_1_n_n.lhsIdx i q 1).val = (q ⟨0, by decide⟩).val :=
  dot_S1024x416_S416x16_S1024x16_1_0_0_1_n_n.lhsIdx_val_of_single rfl i q
private theorem rhs_416x16_0 (i : S1024x16.Idx) (q : dot_S1024x416_S416x16_S1024x16_1_0_0_1_n_n.contr.Idx) :
    (dot_S1024x416_S416x16_S1024x16_1_0_0_1_n_n.rhsIdx i q 0).val = (q ⟨0, by decide⟩).val :=
  dot_S1024x416_S416x16_S1024x16_1_0_0_1_n_n.rhsIdx_val_of_single rfl i q
private theorem rhs_416x16_1 (i : S1024x16.Idx) (q : dot_S1024x416_S416x16_S1024x16_1_0_0_1_n_n.contr.Idx) :
    (dot_S1024x416_S416x16_S1024x16_1_0_0_1_n_n.rhsIdx i q 1).val = (i 1).val := by
  unfold DotDims.rhsIdx
  rw [dif_neg (show ¬(1 : Fin S416x16.rank) ∈ dot_S1024x416_S416x16_S1024x16_1_0_0_1_n_n.rhsBatch by decide), dif_pos (show (1 : Fin S416x16.rank) ∈ dot_S1024x416_S416x16_S1024x16_1_0_0_1_n_n.rhsNonContracting by decide)]
  rfl

/-- Into the zero accumulator the product's entry (p, j) is the sum over the 416 contracted positions. -/
private theorem mm_416x16 (a : FVec Ideal S1024x416 .f32) (b : FVec Ideal S416x16 .f32) (p : Fin 1024) (j : Fin 16) :
    matmul (F := Ideal) dot_S1024x416_S416x16_S1024x16_1_0_0_1_n_n none (truncf .bf16 a bitsLt_bf16_f32) (truncf .bf16 b bitsLt_bf16_f32)
        (constant S1024x16 .f32 0x00000000#32) (ix2 p j)
      = ∑ k : Fin 416, a (ix2 p k) * b (ix2 k j) := by
  refine (Ideal.matmul_constant_zero_apply dot_S1024x416_S416x16_S1024x16_1_0_0_1_n_n none _ _ (ix2 p j)).trans ?_
  rw [← Equiv.sum_comp (contrEquiv1 dot_S1024x416_S416x16_S1024x16_1_0_0_1_n_n 416 rfl rfl).symm]
  refine Finset.sum_congr rfl fun k _ => ?_
  have hk := contrEquiv1_symm_val dot_S1024x416_S416x16_S1024x16_1_0_0_1_n_n 416 rfl rfl k
  have el : dot_S1024x416_S416x16_S1024x16_1_0_0_1_n_n.lhsIdx (ix2 p j) ((contrEquiv1 dot_S1024x416_S416x16_S1024x16_1_0_0_1_n_n 416 rfl rfl).symm k) = ix2 p k := funext fun c => Fin.ext (by
    match c with
    | ⟨0, _⟩ => exact lhs_416x16_0 _ _
    | ⟨1, _⟩ => exact (lhs_416x16_1 _ _).trans hk)
  have er : dot_S1024x416_S416x16_S1024x16_1_0_0_1_n_n.rhsIdx (ix2 p j) ((contrEquiv1 dot_S1024x416_S416x16_S1024x16_1_0_0_1_n_n 416 rfl rfl).symm k) = ix2 k j := funext fun c => Fin.ext (by
    match c with
    | ⟨0, _⟩ => exact (rhs_416x16_0 _ _).trans hk
    | ⟨1, _⟩ => exact rhs_416x16_1 _ _)
  rw [el, er]
  rfl

/-! ### The 1024x13 by 13x400 product -/

private theorem lhs_13x400_0 (i : S1024x400.Idx) (q : dot_S1024x13_S13x400_S1024x400_1_0_0_1_n_n.contr.Idx) :
    (dot_S1024x13_S13x400_S1024x400_1_0_0_1_n_n.lhsIdx i q 0).val = (i 0).val := by
  unfold DotDims.lhsIdx
  rw [dif_neg (show ¬(0 : Fin S1024x13.rank) ∈ dot_S1024x13_S13x400_S1024x400_1_0_0_1_n_n.lhsBatch by decide), dif_pos (show (0 : Fin S1024x13.rank) ∈ dot_S1024x13_S13x400_S1024x400_1_0_0_1_n_n.lhsNonContracting by decide)]
  rfl
private theorem lhs_13x400_1 (i : S1024x400.Idx) (q : dot_S1024x13_S13x400_S1024x400_1_0_0_1_n_n.contr.Idx) :
    (dot_S1024x13_S13x400_S1024x400_1_0_0_1_n_n.lhsIdx i q 1).val = (q ⟨0, by decide⟩).val :=
  dot_S1024x13_S13x400_S1024x400_1_0_0_1_n_n.lhsIdx_val_of_single rfl i q
private theorem rhs_13x400_0 (i : S1024x400.Idx) (q : dot_S1024x13_S13x400_S1024x400_1_0_0_1_n_n.contr.Idx) :
    (dot_S1024x13_S13x400_S1024x400_1_0_0_1_n_n.rhsIdx i q 0).val = (q ⟨0, by decide⟩).val :=
  dot_S1024x13_S13x400_S1024x400_1_0_0_1_n_n.rhsIdx_val_of_single rfl i q
private theorem rhs_13x400_1 (i : S1024x400.Idx) (q : dot_S1024x13_S13x400_S1024x400_1_0_0_1_n_n.contr.Idx) :
    (dot_S1024x13_S13x400_S1024x400_1_0_0_1_n_n.rhsIdx i q 1).val = (i 1).val := by
  unfold DotDims.rhsIdx
  rw [dif_neg (show ¬(1 : Fin S13x400.rank) ∈ dot_S1024x13_S13x400_S1024x400_1_0_0_1_n_n.rhsBatch by decide), dif_pos (show (1 : Fin S13x400.rank) ∈ dot_S1024x13_S13x400_S1024x400_1_0_0_1_n_n.rhsNonContracting by decide)]
  rfl

/-- Into the zero accumulator the product's entry (p, j) is the sum over the 13 contracted positions. -/
private theorem mm_13x400 (a : FVec Ideal S1024x13 .f32) (b : FVec Ideal S13x400 .f32) (p : Fin 1024) (j : Fin 400) :
    matmul (F := Ideal) dot_S1024x13_S13x400_S1024x400_1_0_0_1_n_n none (truncf .bf16 a bitsLt_bf16_f32) (truncf .bf16 b bitsLt_bf16_f32)
        (constant S1024x400 .f32 0x00000000#32) (ix2 p j)
      = ∑ k : Fin 13, a (ix2 p k) * b (ix2 k j) := by
  refine (Ideal.matmul_constant_zero_apply dot_S1024x13_S13x400_S1024x400_1_0_0_1_n_n none _ _ (ix2 p j)).trans ?_
  rw [← Equiv.sum_comp (contrEquiv1 dot_S1024x13_S13x400_S1024x400_1_0_0_1_n_n 13 rfl rfl).symm]
  refine Finset.sum_congr rfl fun k _ => ?_
  have hk := contrEquiv1_symm_val dot_S1024x13_S13x400_S1024x400_1_0_0_1_n_n 13 rfl rfl k
  have el : dot_S1024x13_S13x400_S1024x400_1_0_0_1_n_n.lhsIdx (ix2 p j) ((contrEquiv1 dot_S1024x13_S13x400_S1024x400_1_0_0_1_n_n 13 rfl rfl).symm k) = ix2 p k := funext fun c => Fin.ext (by
    match c with
    | ⟨0, _⟩ => exact lhs_13x400_0 _ _
    | ⟨1, _⟩ => exact (lhs_13x400_1 _ _).trans hk)
  have er : dot_S1024x13_S13x400_S1024x400_1_0_0_1_n_n.rhsIdx (ix2 p j) ((contrEquiv1 dot_S1024x13_S13x400_S1024x400_1_0_0_1_n_n 13 rfl rfl).symm k) = ix2 k j := funext fun c => Fin.ext (by
    match c with
    | ⟨0, _⟩ => exact (rhs_13x400_0 _ _).trans hk
    | ⟨1, _⟩ => exact rhs_13x400_1 _ _)
  rw [el, er]
  rfl

/-! ### The 1024x416 by 416x400 product -/

private theorem lhs_416x400_0 (i : S1024x400.Idx) (q : dot_S1024x416_S416x400_S1024x400_1_0_0_1_n_n.contr.Idx) :
    (dot_S1024x416_S416x400_S1024x400_1_0_0_1_n_n.lhsIdx i q 0).val = (i 0).val := by
  unfold DotDims.lhsIdx
  rw [dif_neg (show ¬(0 : Fin S1024x416.rank) ∈ dot_S1024x416_S416x400_S1024x400_1_0_0_1_n_n.lhsBatch by decide), dif_pos (show (0 : Fin S1024x416.rank) ∈ dot_S1024x416_S416x400_S1024x400_1_0_0_1_n_n.lhsNonContracting by decide)]
  rfl
private theorem lhs_416x400_1 (i : S1024x400.Idx) (q : dot_S1024x416_S416x400_S1024x400_1_0_0_1_n_n.contr.Idx) :
    (dot_S1024x416_S416x400_S1024x400_1_0_0_1_n_n.lhsIdx i q 1).val = (q ⟨0, by decide⟩).val :=
  dot_S1024x416_S416x400_S1024x400_1_0_0_1_n_n.lhsIdx_val_of_single rfl i q
private theorem rhs_416x400_0 (i : S1024x400.Idx) (q : dot_S1024x416_S416x400_S1024x400_1_0_0_1_n_n.contr.Idx) :
    (dot_S1024x416_S416x400_S1024x400_1_0_0_1_n_n.rhsIdx i q 0).val = (q ⟨0, by decide⟩).val :=
  dot_S1024x416_S416x400_S1024x400_1_0_0_1_n_n.rhsIdx_val_of_single rfl i q
private theorem rhs_416x400_1 (i : S1024x400.Idx) (q : dot_S1024x416_S416x400_S1024x400_1_0_0_1_n_n.contr.Idx) :
    (dot_S1024x416_S416x400_S1024x400_1_0_0_1_n_n.rhsIdx i q 1).val = (i 1).val := by
  unfold DotDims.rhsIdx
  rw [dif_neg (show ¬(1 : Fin S416x400.rank) ∈ dot_S1024x416_S416x400_S1024x400_1_0_0_1_n_n.rhsBatch by decide), dif_pos (show (1 : Fin S416x400.rank) ∈ dot_S1024x416_S416x400_S1024x400_1_0_0_1_n_n.rhsNonContracting by decide)]
  rfl

/-- Into the zero accumulator the product's entry (p, j) is the sum over the 416 contracted positions. -/
private theorem mm_416x400 (a : FVec Ideal S1024x416 .f32) (b : FVec Ideal S416x400 .f32) (p : Fin 1024) (j : Fin 400) :
    matmul (F := Ideal) dot_S1024x416_S416x400_S1024x400_1_0_0_1_n_n none (truncf .bf16 a bitsLt_bf16_f32) (truncf .bf16 b bitsLt_bf16_f32)
        (constant S1024x400 .f32 0x00000000#32) (ix2 p j)
      = ∑ k : Fin 416, a (ix2 p k) * b (ix2 k j) := by
  refine (Ideal.matmul_constant_zero_apply dot_S1024x416_S416x400_S1024x400_1_0_0_1_n_n none _ _ (ix2 p j)).trans ?_
  rw [← Equiv.sum_comp (contrEquiv1 dot_S1024x416_S416x400_S1024x400_1_0_0_1_n_n 416 rfl rfl).symm]
  refine Finset.sum_congr rfl fun k _ => ?_
  have hk := contrEquiv1_symm_val dot_S1024x416_S416x400_S1024x400_1_0_0_1_n_n 416 rfl rfl k
  have el : dot_S1024x416_S416x400_S1024x400_1_0_0_1_n_n.lhsIdx (ix2 p j) ((contrEquiv1 dot_S1024x416_S416x400_S1024x400_1_0_0_1_n_n 416 rfl rfl).symm k) = ix2 p k := funext fun c => Fin.ext (by
    match c with
    | ⟨0, _⟩ => exact lhs_416x400_0 _ _
    | ⟨1, _⟩ => exact (lhs_416x400_1 _ _).trans hk)
  have er : dot_S1024x416_S416x400_S1024x400_1_0_0_1_n_n.rhsIdx (ix2 p j) ((contrEquiv1 dot_S1024x416_S416x400_S1024x400_1_0_0_1_n_n 416 rfl rfl).symm k) = ix2 k j := funext fun c => Fin.ext (by
    match c with
    | ⟨0, _⟩ => exact (rhs_416x400_0 _ _).trans hk
    | ⟨1, _⟩ => exact rhs_416x400_1 _ _)
  rw [el, er]
  rfl

/-! ### The 1024x400 by 400x400 product -/

private theorem lhs_400x400_0 (i : S1024x400.Idx) (q : dot_S1024x400_S400x400_S1024x400_1_0_0_1_n_n.contr.Idx) :
    (dot_S1024x400_S400x400_S1024x400_1_0_0_1_n_n.lhsIdx i q 0).val = (i 0).val := by
  unfold DotDims.lhsIdx
  rw [dif_neg (show ¬(0 : Fin S1024x400.rank) ∈ dot_S1024x400_S400x400_S1024x400_1_0_0_1_n_n.lhsBatch by decide), dif_pos (show (0 : Fin S1024x400.rank) ∈ dot_S1024x400_S400x400_S1024x400_1_0_0_1_n_n.lhsNonContracting by decide)]
  rfl
private theorem lhs_400x400_1 (i : S1024x400.Idx) (q : dot_S1024x400_S400x400_S1024x400_1_0_0_1_n_n.contr.Idx) :
    (dot_S1024x400_S400x400_S1024x400_1_0_0_1_n_n.lhsIdx i q 1).val = (q ⟨0, by decide⟩).val :=
  dot_S1024x400_S400x400_S1024x400_1_0_0_1_n_n.lhsIdx_val_of_single rfl i q
private theorem rhs_400x400_0 (i : S1024x400.Idx) (q : dot_S1024x400_S400x400_S1024x400_1_0_0_1_n_n.contr.Idx) :
    (dot_S1024x400_S400x400_S1024x400_1_0_0_1_n_n.rhsIdx i q 0).val = (q ⟨0, by decide⟩).val :=
  dot_S1024x400_S400x400_S1024x400_1_0_0_1_n_n.rhsIdx_val_of_single rfl i q
private theorem rhs_400x400_1 (i : S1024x400.Idx) (q : dot_S1024x400_S400x400_S1024x400_1_0_0_1_n_n.contr.Idx) :
    (dot_S1024x400_S400x400_S1024x400_1_0_0_1_n_n.rhsIdx i q 1).val = (i 1).val := by
  unfold DotDims.rhsIdx
  rw [dif_neg (show ¬(1 : Fin S400x400.rank) ∈ dot_S1024x400_S400x400_S1024x400_1_0_0_1_n_n.rhsBatch by decide), dif_pos (show (1 : Fin S400x400.rank) ∈ dot_S1024x400_S400x400_S1024x400_1_0_0_1_n_n.rhsNonContracting by decide)]
  rfl

/-- Into the zero accumulator the product's entry (p, j) is the sum over the 400 contracted positions. -/
private theorem mm_400x400 (a : FVec Ideal S1024x400 .f32) (b : FVec Ideal S400x400 .f32) (p : Fin 1024) (j : Fin 400) :
    matmul (F := Ideal) dot_S1024x400_S400x400_S1024x400_1_0_0_1_n_n none (truncf .bf16 a bitsLt_bf16_f32) (truncf .bf16 b bitsLt_bf16_f32)
        (constant S1024x400 .f32 0x00000000#32) (ix2 p j)
      = ∑ k : Fin 400, a (ix2 p k) * b (ix2 k j) := by
  refine (Ideal.matmul_constant_zero_apply dot_S1024x400_S400x400_S1024x400_1_0_0_1_n_n none _ _ (ix2 p j)).trans ?_
  rw [← Equiv.sum_comp (contrEquiv1 dot_S1024x400_S400x400_S1024x400_1_0_0_1_n_n 400 rfl rfl).symm]
  refine Finset.sum_congr rfl fun k _ => ?_
  have hk := contrEquiv1_symm_val dot_S1024x400_S400x400_S1024x400_1_0_0_1_n_n 400 rfl rfl k
  have el : dot_S1024x400_S400x400_S1024x400_1_0_0_1_n_n.lhsIdx (ix2 p j) ((contrEquiv1 dot_S1024x400_S400x400_S1024x400_1_0_0_1_n_n 400 rfl rfl).symm k) = ix2 p k := funext fun c => Fin.ext (by
    match c with
    | ⟨0, _⟩ => exact lhs_400x400_0 _ _
    | ⟨1, _⟩ => exact (lhs_400x400_1 _ _).trans hk)
  have er : dot_S1024x400_S400x400_S1024x400_1_0_0_1_n_n.rhsIdx (ix2 p j) ((contrEquiv1 dot_S1024x400_S400x400_S1024x400_1_0_0_1_n_n 400 rfl rfl).symm k) = ix2 k j := funext fun c => Fin.ext (by
    match c with
    | ⟨0, _⟩ => exact (rhs_400x400_0 _ _).trans hk
    | ⟨1, _⟩ => exact rhs_400x400_1 _ _)
  rw [el, er]
  rfl

/-! ### The 1024x400 by 400x1 product -/

private theorem lhs_400x1_0 (i : S1024x1.Idx) (q : dot_S1024x400_S400x1_S1024x1_1_0_0_1_n_n.contr.Idx) :
    (dot_S1024x400_S400x1_S1024x1_1_0_0_1_n_n.lhsIdx i q 0).val = (i 0).val := by
  unfold DotDims.lhsIdx
  rw [dif_neg (show ¬(0 : Fin S1024x400.rank) ∈ dot_S1024x400_S400x1_S1024x1_1_0_0_1_n_n.lhsBatch by decide), dif_pos (show (0 : Fin S1024x400.rank) ∈ dot_S1024x400_S400x1_S1024x1_1_0_0_1_n_n.lhsNonContracting by decide)]
  rfl
private theorem lhs_400x1_1 (i : S1024x1.Idx) (q : dot_S1024x400_S400x1_S1024x1_1_0_0_1_n_n.contr.Idx) :
    (dot_S1024x400_S400x1_S1024x1_1_0_0_1_n_n.lhsIdx i q 1).val = (q ⟨0, by decide⟩).val :=
  dot_S1024x400_S400x1_S1024x1_1_0_0_1_n_n.lhsIdx_val_of_single rfl i q
private theorem rhs_400x1_0 (i : S1024x1.Idx) (q : dot_S1024x400_S400x1_S1024x1_1_0_0_1_n_n.contr.Idx) :
    (dot_S1024x400_S400x1_S1024x1_1_0_0_1_n_n.rhsIdx i q 0).val = (q ⟨0, by decide⟩).val :=
  dot_S1024x400_S400x1_S1024x1_1_0_0_1_n_n.rhsIdx_val_of_single rfl i q
private theorem rhs_400x1_1 (i : S1024x1.Idx) (q : dot_S1024x400_S400x1_S1024x1_1_0_0_1_n_n.contr.Idx) :
    (dot_S1024x400_S400x1_S1024x1_1_0_0_1_n_n.rhsIdx i q 1).val = (i 1).val := by
  unfold DotDims.rhsIdx
  rw [dif_neg (show ¬(1 : Fin S400x1.rank) ∈ dot_S1024x400_S400x1_S1024x1_1_0_0_1_n_n.rhsBatch by decide), dif_pos (show (1 : Fin S400x1.rank) ∈ dot_S1024x400_S400x1_S1024x1_1_0_0_1_n_n.rhsNonContracting by decide)]
  rfl

/-- Into the zero accumulator the product's entry (p, j) is the sum over the 400 contracted positions. -/
private theorem mm_400x1 (a : FVec Ideal S1024x400 .f32) (b : FVec Ideal S400x1 .f32) (p : Fin 1024) (j : Fin 1) :
    matmul (F := Ideal) dot_S1024x400_S400x1_S1024x1_1_0_0_1_n_n none (truncf .bf16 a bitsLt_bf16_f32) (truncf .bf16 b bitsLt_bf16_f32)
        (constant S1024x1 .f32 0x00000000#32) (ix2 p j)
      = ∑ k : Fin 400, a (ix2 p k) * b (ix2 k j) := by
  refine (Ideal.matmul_constant_zero_apply dot_S1024x400_S400x1_S1024x1_1_0_0_1_n_n none _ _ (ix2 p j)).trans ?_
  rw [← Equiv.sum_comp (contrEquiv1 dot_S1024x400_S400x1_S1024x1_1_0_0_1_n_n 400 rfl rfl).symm]
  refine Finset.sum_congr rfl fun k _ => ?_
  have hk := contrEquiv1_symm_val dot_S1024x400_S400x1_S1024x1_1_0_0_1_n_n 400 rfl rfl k
  have el : dot_S1024x400_S400x1_S1024x1_1_0_0_1_n_n.lhsIdx (ix2 p j) ((contrEquiv1 dot_S1024x400_S400x1_S1024x1_1_0_0_1_n_n 400 rfl rfl).symm k) = ix2 p k := funext fun c => Fin.ext (by
    match c with
    | ⟨0, _⟩ => exact lhs_400x1_0 _ _
    | ⟨1, _⟩ => exact (lhs_400x1_1 _ _).trans hk)
  have er : dot_S1024x400_S400x1_S1024x1_1_0_0_1_n_n.rhsIdx (ix2 p j) ((contrEquiv1 dot_S1024x400_S400x1_S1024x1_1_0_0_1_n_n 400 rfl rfl).symm k) = ix2 k j := funext fun c => Fin.ext (by
    match c with
    | ⟨0, _⟩ => exact (rhs_400x1_0 _ _).trans hk
    | ⟨1, _⟩ => exact rhs_400x1_1 _ _)
  rw [el, er]
  rfl

/-! ### Lane sums -/

/-- The sum over the 26 lanes of row p. -/
private theorem lane26 (v : FVec Ideal S1024x26 .f32) (p : Fin 1024) :
    multiReduction (F := Ideal) .add [1] S1024 v 0x00000000#32 reduces_S1024x26_S1024 (.inl rfl) rfl (ix1 p)
      = ∑ f : Fin 26, v (ix2 p f) := by
  refine (Ideal.multiReduction_add_single v _ reduces_S1024x26_S1024 (.inl rfl) rfl (ix1 p)).trans ?_
  refine Finset.sum_congr rfl fun f _ => congrArg v (funext fun c => Fin.ext ?_)
  match c with
  | ⟨0, _⟩ => rfl
  | ⟨1, _⟩ => rfl

/-- The sum over the 16 lanes of row p. -/
private theorem lane16 (v : FVec Ideal S1024x16 .f32) (p : Fin 1024) :
    multiReduction (F := Ideal) .add [1] S1024 v 0x00000000#32 reduces_S1024x16_S1024 (.inl rfl) rfl (ix1 p)
      = ∑ e : Fin 16, v (ix2 p e) := by
  refine (Ideal.multiReduction_add_single v _ reduces_S1024x16_S1024 (.inl rfl) rfl (ix1 p)).trans ?_
  refine Finset.sum_congr rfl fun e _ => congrArg v (funext fun c => Fin.ext ?_)
  match c with
  | ⟨0, _⟩ => rfl
  | ⟨1, _⟩ => rfl

/-! ### Layout steps -/

/-- A length-1024 vector viewed as a 1024x1 column reads entry p at (p, 0). -/
private theorem col_apply (v : FVec Ideal S1024 .f32) (p : Fin 1024) :
    shapeCast S1024x1 v shapeCasts_S1024_S1024x1 (ix2 p 0) = v (ix1 p) :=
  shapeCast_apply v shapeCasts_S1024_S1024x1 (ix2 p 0) (ix1 p) (by
    rw [Shape.rowMajor_val_two, Shape.rowMajor_val_one]
    show p.val = p.val * 1 + 0
    omega)

/-- A 1x1 block spread down 1024 rows reads its one entry everywhere. -/
private theorem bc11_apply (v : FVec Ideal S1x1 .f32) (p : Fin 1024) :
    broadcastTo S1024x1 v broadcasts_S1x1_S1024x1 (ix2 p 0) = v (ix2 0 0) := by
  refine broadcastTo_apply v broadcasts_S1x1_S1024x1 (ix2 p 0) (ix2 0 0) fun ax => ?_
  match ax with
  | ⟨0, _⟩ => rfl
  | ⟨1, _⟩ => rfl

/-- A 1x400 row spread down 1024 rows reads the row's entry j at (p, j). -/
private theorem bc400_apply (v : FVec Ideal S1x400 .f32) (p : Fin 1024) (j : Fin 400) :
    broadcastTo S1024x400 v broadcasts_S1x400_S1024x400 (ix2 p j) = v (ix2 0 j) :=
  broadcastTo_1b_ab_apply v broadcasts_S1x400_S1024x400 p j

/-! ### The payloads read at a row -/

/-- The embedding block passes through its same-shape view unchanged. -/
private theorem pay1_eq (x2 : Vec Ideal S1024x416 .f32) : k0_pay1 (F := Ideal) x2 = x2 :=
  shapeCast_self _ _

/-- The first-layer continuous weights pass through their same-shape view unchanged. -/
private theorem pay3_eq (x6 : Vec Ideal S13x400 .f32) : k0_pay3 (F := Ideal) x6 = x6 :=
  shapeCast_self _ _

/-- The factorization-machine column at row `p`: the linear term plus its bias, plus the first-order lane sum, plus
    one half of the lane sum of (field sum squared minus field sum of squares), the field sums taken through the
    selector block. -/
private theorem pay2_row (x0 : Vec Ideal S1024x13 .f32) (x1 : Vec Ideal S1024x26 .f32) (x2 : Vec Ideal S1024x416 .f32)
    (x3 : Vec Ideal S13x1 .f32) (x4 : Vec Ideal S1x1 .f32) (x5 : Vec Ideal S416x16 .f32) (p : Fin 1024) :
    k0_pay2 (F := Ideal) x0 x1 x2 x3 x4 x5 x5 (ix2 p 0)
      = ((∑ k : Fin 13, x0 (ix2 p k) * x3 (ix2 k 0) + x4 (ix2 0 0)) + ∑ f : Fin 26, x1 (ix2 p f))
        + Cert.DeepFM.half * ∑ e' : Fin 16, ((∑ k : Fin 416, x2 (ix2 p k) * x5 (ix2 k e')) * (∑ k : Fin 416, x2 (ix2 p k) * x5 (ix2 k e'))
            - ∑ k : Fin 416, (x2 (ix2 p k) * x2 (ix2 p k)) * x5 (ix2 k e')) := by
  unfold k0_pay2 k0_pay1
  simp only [shapeCast_self, addf_apply, mulf_apply, broadcast_apply, mm_13x1, bc11_apply, col_apply, Ideal.ofBits_def]
  refine congrArg₂ (· + ·) (congrArg (_ + ·) (lane26 x1 p)) (congrArg (_ * ·) ((lane16 _ p).trans ?_))
  refine Finset.sum_congr rfl fun e _ => ?_
  simp only [subf_apply, mulf_apply, mm_416x16]

/-- The stored value at row `p`: the tiled row function of row `p` of the batch blocks. -/
theorem pay_row (x0 : Vec Ideal S1024x13 .f32) (x1 : Vec Ideal S1024x26 .f32) (x2 : Vec Ideal S1024x416 .f32)
    (x3 : Vec Ideal S13x1 .f32) (x4 : Vec Ideal S1x1 .f32) (x5 : Vec Ideal S416x16 .f32) (x6 : Vec Ideal S13x400 .f32)
    (x7 : Vec Ideal S416x400 .f32) (x8 : Vec Ideal S1x400 .f32) (x9 : Vec Ideal S400x400 .f32) (x10 : Vec Ideal S1x400 .f32)
    (x11 : Vec Ideal S400x1 .f32) (x12 : Vec Ideal S1x1 .f32) (x13 : Vec Ideal S1x1 .f32) (p : Fin 1024) :
    k0_pay5 (F := Ideal) (k0_pay1 x2) (k0_pay2 x0 x1 x2 x3 x4 x5 x5) (k0_pay3 x6) (k0_pay4 x0) x7 x8 x9 x10 x12 x11 x13 (ix2 p 0)
      = Cert.DeepFM.rowK (fun k => x0 (ix2 p k)) (fun f => x1 (ix2 p f)) (fun k => x2 (ix2 p k)) (fun k => x3 (ix2 k 0)) (x4 (ix2 0 0))
          (fun k e => x5 (ix2 k e)) (fun k j => x6 (ix2 k j)) (fun k j => x7 (ix2 k j)) (fun j => x8 (ix2 0 j))
          (fun a j => x9 (ix2 a j)) (fun j => x10 (ix2 0 j)) (fun j => x11 (ix2 j 0)) (x12 (ix2 0 0)) (x13 (ix2 0 0)) := by
  rw [pay1_eq, pay3_eq]
  unfold k0_pay5 k0_pay4 Cert.DeepFM.rowK
  simp only [shapeCast_self, addf_apply, mulf_apply, maximumf_apply, broadcast_apply, bc11_apply, bc400_apply,
    mm_400x1, mm_400x400, mm_13x400, mm_416x400, pay2_row, Ideal.ofBits_def, Ideal.ofBits_zero_f32]

end Cert.KernelIdeal.Pay

end
-- ==== Proof.KWindows.lean ====
/-
  What the kernel's windows hold when the region is entered.

  Before the call @main gathers one table row per (batch row, field) from each embedding table, drops the first-order
  table's unit axis, flattens (field, coordinate) to 416 positions, builds the 0/1 field-sum selector from two iotas,
  cuts the first layer's and the output layer's weights where the concatenations join, and gives the four biases a
  leading unit axis. Each window's array, read at explicit coordinates, is the corresponding entry of an argument,
  of the gathered arrays `first3K` / `emb3K`, or of the selector `DeepFM.sel`.
-/
import proofs.«107994_j21732534518459_1_alg».proof.Proof.Gen.KernelIdeal.Frame
import proofs.«107994_j21732534518459_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Win

open Cert.KernelIdeal Cert.KernelIdeal.Gen Idealize.ShloMosaic Idealize.ShloMosaic.TcCoe Idealize.ShloMosaic.ValueIdx Idealize.SL.Sem

/-- The gathered first-order entries, [batch, field, 1]: row `idx` of table `f`, a negative `idx` counted from the table's end. -/
def first3K (x1 : (⟨S16384x26, .i32⟩ : BufTy).Contents (Elt Ideal)) (x4 : (⟨S26x100000x1, .f32⟩ : BufTy).Contents (Elt Ideal)) :
    (⟨S16384x26x1, .f32⟩ : BufTy).Contents (Elt Ideal) :=
  transpose S16384x26x1 [1, 0, 2] (Host.gather gather_S26x100000x1_S26x16384x1_S26x16384x1_2_1_0_0_1_2_111 x4
    (broadcastInDim S26x16384x1 ![0, 1] bcast_S26x16384_S26x16384x1_0_1 (transpose S26x16384 [1, 0]
      (select (cmpi .slt x1 (broadcastInDim S16384x26 ![] bcast_S_S16384x26 (constantI S_ 32 0#32)))
        (addi x1 (broadcastInDim S16384x26 ![] bcast_S_S16384x26 (constantI S_ 32 100000#32))) x1) transposes_S16384x26_S26x16384_1_0)))
    transposes_S26x16384x1_S16384x26x1_1_0_2

/-- The gathered embedding vectors, [batch, field, 16]. -/
def emb3K (x1 : (⟨S16384x26, .i32⟩ : BufTy).Contents (Elt Ideal)) (x5 : (⟨S26x100000x16, .f32⟩ : BufTy).Contents (Elt Ideal)) :
    (⟨S16384x26x16, .f32⟩ : BufTy).Contents (Elt Ideal) :=
  transpose S16384x26x16 [1, 0, 2] (Host.gather gather_S26x100000x16_S26x16384x1_S26x16384x16_2_1_0_0_1_2_1116 x5
    (broadcastInDim S26x16384x1 ![0, 1] bcast_S26x16384_S26x16384x1_0_1 (transpose S26x16384 [1, 0]
      (select (cmpi .slt x1 (broadcastInDim S16384x26 ![] bcast_S_S16384x26 (constantI S_ 32 0#32)))
        (addi x1 (broadcastInDim S16384x26 ![] bcast_S_S16384x26 (constantI S_ 32 100000#32))) x1) transposes_S16384x26_S26x16384_1_0)))
    transposes_S26x16384x16_S16384x26x16_1_0_2

variable (m : (ℓ : Loc nD τ sig) → Buf (Elt Ideal) ℓ) (c : Dev nD)

/-! ## Each window's array as the term its operations compose -/

private theorem e_first : (V m c main_v18 : S16384x26.Idx → EReal)
    = shapeCast S16384x26 (first3K (m ((c : Thread nD τ).loc main_arg1)) (m ((c : Thread nD τ).loc main_arg4))) shapeCasts_S16384x26x1_S16384x26 := by
  dsimp only [Gen.V, Gen.hostOps0]; after_results_simp; rfl

private theorem e_embflat : (V m c main_v19 : S16384x416.Idx → EReal)
    = shapeCast S16384x416 (emb3K (m ((c : Thread nD τ).loc main_arg1)) (m ((c : Thread nD τ).loc main_arg5))) shapeCasts_S16384x26x16_S16384x416 := by
  dsimp only [Gen.V, Gen.hostOps0]; after_results_simp; rfl

private theorem e_sel : (V m c main_v28 : S416x16.Idx → EReal)
    = shapeCast S416x16 (broadcastInDim S26x16x1x16 ![0, 1, 2, 3] bcast_S1x16x1x16_S26x16x1x16_0_1_2_3
        (shapeCast S1x16x1x16 (uitofp (F := Ideal) .f32 (cmpi .eq (addi (iotaInDim S16x16 32 0)
          (broadcastInDim S16x16 ![] bcast_S_S16x16 (constantI S_ 32 0#32))) (iotaInDim S16x16 32 1)))
          shapeCasts_S16x16_S1x16x1x16)) shapeCasts_S26x16x1x16_S416x16 := by
  dsimp only [Gen.V, Gen.hostOps0]; after_results; rfl

private theorem e_W1c : (V m c main_v29 : S13x400.Idx → EReal)
    = extractStridedSlice S13x400 ![0, 0] (m ((c : Thread nD τ).loc main_arg6)) slices_S429x400_S13x400_0_0 := by
  dsimp only [Gen.V, Gen.hostOps0]; after_results

private theorem e_W1e : (V m c main_v30 : S416x400.Idx → EReal)
    = extractStridedSlice S416x400 ![13, 0] (m ((c : Thread nD τ).loc main_arg6)) slices_S429x400_S416x400_13_0 := by
  dsimp only [Gen.V, Gen.hostOps0]; after_results

private theorem e_Wfm : (V m c main_v31 : S1x1.Idx → EReal)
    = extractStridedSlice S1x1 ![0, 0] (m ((c : Thread nD τ).loc main_arg10)) slices_S401x1_S1x1_0_0 := by
  dsimp only [Gen.V, Gen.hostOps0]; after_results

private theorem e_Wh : (V m c main_v32 : S400x1.Idx → EReal)
    = extractStridedSlice S400x1 ![1, 0] (m ((c : Thread nD τ).loc main_arg10)) slices_S401x1_S400x1_1_0 := by
  dsimp only [Gen.V, Gen.hostOps0]; after_results

private theorem e_bc : (V m c main_v33 : S1x1.Idx → EReal) = shapeCast S1x1 (m ((c : Thread nD τ).loc main_arg3)) shapeCasts_S1_S1x1 := by
  dsimp only [Gen.V, Gen.hostOps0]; after_results; rfl

private theorem e_b1 : (V m c main_v34 : S1x400.Idx → EReal) = shapeCast S1x400 (m ((c : Thread nD τ).loc main_arg7)) shapeCasts_S400_S1x400 := by
  dsimp only [Gen.V, Gen.hostOps0]; after_results; rfl

private theorem e_b2 : (V m c main_v35 : S1x400.Idx → EReal) = shapeCast S1x400 (m ((c : Thread nD τ).loc main_arg9)) shapeCasts_S400_S1x400 := by
  dsimp only [Gen.V, Gen.hostOps0]; after_results; rfl

private theorem e_bo : (V m c main_v36 : S1x1.Idx → EReal) = shapeCast S1x1 (m ((c : Thread nD τ).loc main_arg11)) shapeCasts_S1_S1x1 := by
  dsimp only [Gen.V, Gen.hostOps0]; after_results; rfl

/-- The 32-bit words of two indices below 16 compare equal exactly when the indices are equal; the comparison's
    bit read as a natural is then 1 or 0. -/
private theorem word_eq (a e : Fin 16) :
    (IntOp.cmpi .eq (IntOp.addi (BitVec.ofNat 32 a.val) 0#32) (BitVec.ofNat 32 e.val)).toNat = if a.val = e.val then 1 else 0 := by
  revert a e; decide

/-! ## The windows read at explicit coordinates -/

/-- Window 1's array: the first-order entries with the unit axis dropped. -/
theorem V_first (r : Fin 16384) (f : Fin 26) :
    V m c main_v18 (ix2 r f) = first3K (m ((c : Thread nD τ).loc main_arg1)) (m ((c : Thread nD τ).loc main_arg4)) (ix3 r f 0) := by
  refine (congrFun (e_first m c) _).trans ?_
  refine shapeCast_apply _ _ _ _ ?_
  rw [Shape.rowMajor_val_two, Shape.rowMajor_val_three]
  show (r.val * 26 + f.val) * 1 + 0 = r.val * 26 + f.val
  omega

/-- Window 2's array: position `k` of row `r` is coordinate `k % 16` of field `k / 16`. -/
theorem V_embflat (r : Fin 16384) (k : Fin 416) :
    V m c main_v19 (ix2 r k) = emb3K (m ((c : Thread nD τ).loc main_arg1)) (m ((c : Thread nD τ).loc main_arg5))
      (ix3 r ⟨k.val / 16, by have := k.isLt; omega⟩ ⟨k.val % 16, Nat.mod_lt _ (by decide)⟩) := by
  refine (congrFun (e_embflat m c) _).trans ?_
  refine shapeCast_apply _ _ _ _ ?_
  rw [Shape.rowMajor_val_two, Shape.rowMajor_val_three]
  show (r.val * 26 + k.val / 16) * 16 + k.val % 16 = r.val * 416 + k.val
  omega

/-- Window 5's array is the 0/1 field-sum selector: position `k` is (field `k / 16`, coordinate `k % 16`, 0) of the
    broadcast array, which does not depend on the field; there the entry is the bit of "row index = column index" of the
    16 × 16 square, read as a number. -/
theorem V_sel (k : Fin 416) (e : Fin 16) : V m c main_v28 (ix2 k e) = Cert.DeepFM.sel k e := by
  refine (congrFun (e_sel m c) _).trans ?_
  have hq : k.val / 16 < 26 := by have := k.isLt; omega
  have hr : k.val % 16 < 16 := Nat.mod_lt _ (by decide)
  refine (shapeCast_apply _ _ _ (ix4 (⟨k.val / 16, hq⟩ : Fin 26) (⟨k.val % 16, hr⟩ : Fin 16) (0 : Fin 1) e) ?_).trans ?_
  · rw [Shape.rowMajor_val_two, Shape.rowMajor_val_four]
    show ((k.val / 16 * 16 + k.val % 16) * 1 + 0) * 16 + e.val = k.val * 16 + e.val
    omega
  refine (broadcastInDim_apply _ _ _ _ (ix4 (0 : Fin 1) (⟨k.val % 16, hr⟩ : Fin 16) (0 : Fin 1) e) ?_).trans ?_
  · intro a; fin_cases a <;> rfl
  refine (shapeCast_apply _ _ _ (ix2 (⟨k.val % 16, hr⟩ : Fin 16) e) ?_).trans ?_
  · rw [Shape.rowMajor_val_two, Shape.rowMajor_val_four]
    show k.val % 16 * 16 + e.val = ((0 * 16 + k.val % 16) * 1 + 0) * 16 + e.val
    omega
  show (((IntOp.cmpi .eq (IntOp.addi (BitVec.ofNat 32 (k.val % 16)) 0#32) (BitVec.ofNat 32 e.val)).toNat : ℝ) : EReal) = _
  rw [word_eq ⟨k.val % 16, hr⟩ e]
  unfold Cert.DeepFM.sel
  show (((if k.val % 16 = e.val then 1 else 0 : ℕ) : ℝ) : EReal) = _
  split_ifs <;> simp

/-- Window 6's array: the first 13 rows of the first layer's weights. -/
theorem V_W1c (k : Fin 13) (j : Fin 400) :
    V m c main_v29 (ix2 k j) = m ((c : Thread nD τ).loc main_arg6) (ix2 ⟨k.val, by have := k.isLt; omega⟩ j) := by
  refine (congrFun (e_W1c m c) _).trans ?_
  exact slice2_axis0_apply 0 _ _ k j _ (Nat.zero_add _).symm

/-- Window 7's array: rows 13 … 428 of the first layer's weights. -/
theorem V_W1e (k : Fin 416) (j : Fin 400) :
    V m c main_v30 (ix2 k j) = m ((c : Thread nD τ).loc main_arg6) (ix2 ⟨13 + k.val, by have := k.isLt; omega⟩ j) := by
  refine (congrFun (e_W1e m c) _).trans ?_
  exact slice2_axis0_apply 13 _ _ k j _ rfl

/-- Window 12's array: the output weight of the factorization-machine term. -/
theorem V_Wfm : V m c main_v31 (ix2 0 0) = m ((c : Thread nD τ).loc main_arg10) (ix2 ⟨0, by decide⟩ 0) := by
  refine (congrFun (e_Wfm m c) _).trans ?_
  exact slice2_axis0_apply 0 _ _ 0 0 _ rfl

/-- Window 11's array: the output weights of the hidden layer, rows 1 … 400. -/
theorem V_Wh (j : Fin 400) :
    V m c main_v32 (ix2 j 0) = m ((c : Thread nD τ).loc main_arg10) (ix2 ⟨1 + j.val, by have := j.isLt; omega⟩ 0) := by
  refine (congrFun (e_Wh m c) _).trans ?_
  exact slice2_axis0_apply 1 _ _ j 0 _ rfl

/-- Window 4's array: the continuous part's bias. -/
theorem V_bc : V m c main_v33 (ix2 0 0) = m ((c : Thread nD τ).loc main_arg3) (ix1 0) := by
  refine (congrFun (e_bc m c) _).trans ?_
  exact shapeCast_a_1a_apply _ _ 0 0

/-- Window 8's array: the first layer's bias as one row. -/
theorem V_b1 (j : Fin 400) : V m c main_v34 (ix2 0 j) = m ((c : Thread nD τ).loc main_arg7) (ix1 j) := by
  refine (congrFun (e_b1 m c) _).trans ?_
  exact shapeCast_a_1a_apply _ _ 0 j

/-- Window 10's array: the second layer's bias as one row. -/
theorem V_b2 (j : Fin 400) : V m c main_v35 (ix2 0 j) = m ((c : Thread nD τ).loc main_arg9) (ix1 j) := by
  refine (congrFun (e_b2 m c) _).trans ?_
  exact shapeCast_a_1a_apply _ _ 0 j

/-- Window 13's array: the output bias. -/
theorem V_bo : V m c main_v36 (ix2 0 0) = m ((c : Thread nD τ).loc main_arg11) (ix1 0) := by
  refine (congrFun (e_bo m c) _).trans ?_
  exact shapeCast_a_1a_apply _ _ 0 0

end Cert.KernelIdeal.Win

end
-- ==== Proof.KFinal.lean ====
/-
  From the kernel's blocks to its result array.

  The grid has 16 points; point `t` stages rows `1024 t … 1024 t + 1023` of the three batch arrays and every weight
  array whole, and writes rows `1024 t … 1024 t + 1023` of the one-column result. The stored column at row `p` is the
  tiled row function of row `p` of the blocks (KPayload), the blocks are rows of the arrays @main prepared
  (KWindows), and the tiled row function of those is the row function of the arguments (SpecLaw). So point `t`
  writes block `t` of `DeepFM.G`, the 16 blocks cover the array, and the array ends at `DeepFM.G`.
-/
import proofs.«107994_j21732534518459_1_alg».proof.Proof.Gen.KernelIdeal.Value
import proofs.«107994_j21732534518459_1_alg».proof.Proof.SpecLaw
import proofs.«107994_j21732534518459_1_alg».proof.Proof.KPayload
import proofs.«107994_j21732534518459_1_alg».proof.Proof.KWindows
import Idealize.ShloMosaic.Lib.Pipeline.Value

noncomputable section

namespace Cert.KernelIdeal.Final

open Cert.KernelIdeal Cert.KernelIdeal.Gen Cert.KernelIdeal.Value Cert.KernelIdeal.Win
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 16 grid points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-! ## Each window's block as entries of its array -/

/-- Window 0's block at point `t` is rows `1024 t … 1024 t + 1023` of its array. -/
theorem blk0 (c : Dev nD) (t : Fin cfg0.N) (p : Fin 1024) (q : Fin 13) :
    (iblk m c 0 t : Vec Ideal S1024x13 .f32) (ix2 p q) = (V m c main_arg0 : S16384x13.Idx → EReal) (ix2 ⟨1024 * t.val + p.val, by have := t.isLt; have := p.isLt; have : cfg0.N = 16 := rfl; omega⟩ q) := by
  have hi := idx0 t
  unfold iblk
  rw [View.read_apply]
  show V m c main_arg0 _ = V m c main_arg0 _
  congr 1
  funext a
  apply Fin.ext
  match a with
  | ⟨0, _⟩ => show win0_0.index t (0 : Fin 2) * 1024 + 1 * p.val = _; rw [hi.1]; show t.val * 1024 + 1 * p.val = 1024 * t.val + p.val; omega
  | ⟨1, _⟩ => show win0_0.index t (1 : Fin 2) * 13 + 1 * q.val = _; rw [hi.2]; show 0 * 13 + 1 * q.val = q.val; omega

/-- Window 1's block at point `t` is rows `1024 t … 1024 t + 1023` of its array. -/
theorem blk1 (c : Dev nD) (t : Fin cfg0.N) (p : Fin 1024) (q : Fin 26) :
    (iblk m c 1 t : Vec Ideal S1024x26 .f32) (ix2 p q) = (V m c main_v18 : S16384x26.Idx → EReal) (ix2 ⟨1024 * t.val + p.val, by have := t.isLt; have := p.isLt; have : cfg0.N = 16 := rfl; omega⟩ q) := by
  have hi := idx1 t
  unfold iblk
  rw [View.read_apply]
  show V m c main_v18 _ = V m c main_v18 _
  congr 1
  funext a
  apply Fin.ext
  match a with
  | ⟨0, _⟩ => show win0_1.index t (0 : Fin 2) * 1024 + 1 * p.val = _; rw [hi.1]; show t.val * 1024 + 1 * p.val = 1024 * t.val + p.val; omega
  | ⟨1, _⟩ => show win0_1.index t (1 : Fin 2) * 26 + 1 * q.val = _; rw [hi.2]; show 0 * 26 + 1 * q.val = q.val; omega

/-- Window 2's block at point `t` is rows `1024 t … 1024 t + 1023` of its array. -/
theorem blk2 (c : Dev nD) (t : Fin cfg0.N) (p : Fin 1024) (q : Fin 416) :
    (iblk m c 2 t : Vec Ideal S1024x416 .f32) (ix2 p q) = (V m c main_v19 : S16384x416.Idx → EReal) (ix2 ⟨1024 * t.val + p.val, by have := t.isLt; have := p.isLt; have : cfg0.N = 16 := rfl; omega⟩ q) := by
  have hi := idx2 t
  unfold iblk
  rw [View.read_apply]
  show V m c main_v19 _ = V m c main_v19 _
  congr 1
  funext a
  apply Fin.ext
  match a with
  | ⟨0, _⟩ => show win0_2.index t (0 : Fin 2) * 1024 + 1 * p.val = _; rw [hi.1]; show t.val * 1024 + 1 * p.val = 1024 * t.val + p.val; omega
  | ⟨1, _⟩ => show win0_2.index t (1 : Fin 2) * 416 + 1 * q.val = _; rw [hi.2]; show 0 * 416 + 1 * q.val = q.val; omega

/-- Window 3's block is its whole array at every point. -/
theorem blk3 (c : Dev nD) (t : Fin cfg0.N) (p : Fin 13) (q : Fin 1) :
    (iblk m c 3 t : Vec Ideal S13x1 .f32) (ix2 p q) = (V m c main_arg2 : S13x1.Idx → EReal) (ix2 p q) := by
  have hi := idx3 t
  unfold iblk
  rw [View.read_apply]
  show V m c main_arg2 _ = V m c main_arg2 _
  congr 1
  funext a
  apply Fin.ext
  match a with
  | ⟨0, _⟩ => show win0_3.index t (0 : Fin 2) * 13 + 1 * p.val = _; rw [hi.1]; show 0 * 13 + 1 * p.val = p.val; omega
  | ⟨1, _⟩ => show win0_3.index t (1 : Fin 2) * 1 + 1 * q.val = _; rw [hi.2]; show 0 * 1 + 1 * q.val = q.val; omega

/-- Window 4's block is its whole array at every point. -/
theorem blk4 (c : Dev nD) (t : Fin cfg0.N) (p : Fin 1) (q : Fin 1) :
    (iblk m c 4 t : Vec Ideal S1x1 .f32) (ix2 p q) = (V m c main_v33 : S1x1.Idx → EReal) (ix2 p q) := by
  have hi := idx4 t
  unfold iblk
  rw [View.read_apply]
  show V m c main_v33 _ = V m c main_v33 _
  congr 1
  funext a
  apply Fin.ext
  match a with
  | ⟨0, _⟩ => show win0_4.index t (0 : Fin 2) * 1 + 1 * p.val = _; rw [hi.1]; show 0 * 1 + 1 * p.val = p.val; omega
  | ⟨1, _⟩ => show win0_4.index t (1 : Fin 2) * 1 + 1 * q.val = _; rw [hi.2]; show 0 * 1 + 1 * q.val = q.val; omega

/-- Window 5's block is its whole array at every point. -/
theorem blk5 (c : Dev nD) (t : Fin cfg0.N) (p : Fin 416) (q : Fin 16) :
    (iblk m c 5 t : Vec Ideal S416x16 .f32) (ix2 p q) = (V m c main_v28 : S416x16.Idx → EReal) (ix2 p q) := by
  have hi := idx5 t
  unfold iblk
  rw [View.read_apply]
  show V m c main_v28 _ = V m c main_v28 _
  congr 1
  funext a
  apply Fin.ext
  match a with
  | ⟨0, _⟩ => show win0_5.index t (0 : Fin 2) * 416 + 1 * p.val = _; rw [hi.1]; show 0 * 416 + 1 * p.val = p.val; omega
  | ⟨1, _⟩ => show win0_5.index t (1 : Fin 2) * 16 + 1 * q.val = _; rw [hi.2]; show 0 * 16 + 1 * q.val = q.val; omega

/-- Window 6's block is its whole array at every point. -/
theorem blk6 (c : Dev nD) (t : Fin cfg0.N) (p : Fin 13) (q : Fin 400) :
    (iblk m c 6 t : Vec Ideal S13x400 .f32) (ix2 p q) = (V m c main_v29 : S13x400.Idx → EReal) (ix2 p q) := by
  have hi := idx6 t
  unfold iblk
  rw [View.read_apply]
  show V m c main_v29 _ = V m c main_v29 _
  congr 1
  funext a
  apply Fin.ext
  match a with
  | ⟨0, _⟩ => show win0_6.index t (0 : Fin 2) * 13 + 1 * p.val = _; rw [hi.1]; show 0 * 13 + 1 * p.val = p.val; omega
  | ⟨1, _⟩ => show win0_6.index t (1 : Fin 2) * 400 + 1 * q.val = _; rw [hi.2]; show 0 * 400 + 1 * q.val = q.val; omega

/-- Window 7's block is its whole array at every point. -/
theorem blk7 (c : Dev nD) (t : Fin cfg0.N) (p : Fin 416) (q : Fin 400) :
    (iblk m c 7 t : Vec Ideal S416x400 .f32) (ix2 p q) = (V m c main_v30 : S416x400.Idx → EReal) (ix2 p q) := by
  have hi := idx7 t
  unfold iblk
  rw [View.read_apply]
  show V m c main_v30 _ = V m c main_v30 _
  congr 1
  funext a
  apply Fin.ext
  match a with
  | ⟨0, _⟩ => show win0_7.index t (0 : Fin 2) * 416 + 1 * p.val = _; rw [hi.1]; show 0 * 416 + 1 * p.val = p.val; omega
  | ⟨1, _⟩ => show win0_7.index t (1 : Fin 2) * 400 + 1 * q.val = _; rw [hi.2]; show 0 * 400 + 1 * q.val = q.val; omega

/-- Window 8's block is its whole array at every point. -/
theorem blk8 (c : Dev nD) (t : Fin cfg0.N) (p : Fin 1) (q : Fin 400) :
    (iblk m c 8 t : Vec Ideal S1x400 .f32) (ix2 p q) = (V m c main_v34 : S1x400.Idx → EReal) (ix2 p q) := by
  have hi := idx8 t
  unfold iblk
  rw [View.read_apply]
  show V m c main_v34 _ = V m c main_v34 _
  congr 1
  funext a
  apply Fin.ext
  match a with
  | ⟨0, _⟩ => show win0_8.index t (0 : Fin 2) * 1 + 1 * p.val = _; rw [hi.1]; show 0 * 1 + 1 * p.val = p.val; omega
  | ⟨1, _⟩ => show win0_8.index t (1 : Fin 2) * 400 + 1 * q.val = _; rw [hi.2]; show 0 * 400 + 1 * q.val = q.val; omega

/-- Window 9's block is its whole array at every point. -/
theorem blk9 (c : Dev nD) (t : Fin cfg0.N) (p : Fin 400) (q : Fin 400) :
    (iblk m c 9 t : Vec Ideal S400x400 .f32) (ix2 p q) = (V m c main_arg8 : S400x400.Idx → EReal) (ix2 p q) := by
  have hi := idx9 t
  unfold iblk
  rw [View.read_apply]
  show V m c main_arg8 _ = V m c main_arg8 _
  congr 1
  funext a
  apply Fin.ext
  match a with
  | ⟨0, _⟩ => show win0_9.index t (0 : Fin 2) * 400 + 1 * p.val = _; rw [hi.1]; show 0 * 400 + 1 * p.val = p.val; omega
  | ⟨1, _⟩ => show win0_9.index t (1 : Fin 2) * 400 + 1 * q.val = _; rw [hi.2]; show 0 * 400 + 1 * q.val = q.val; omega

/-- Window 10's block is its whole array at every point. -/
theorem blk10 (c : Dev nD) (t : Fin cfg0.N) (p : Fin 1) (q : Fin 400) :
    (iblk m c 10 t : Vec Ideal S1x400 .f32) (ix2 p q) = (V m c main_v35 : S1x400.Idx → EReal) (ix2 p q) := by
  have hi := idx10 t
  unfold iblk
  rw [View.read_apply]
  show V m c main_v35 _ = V m c main_v35 _
  congr 1
  funext a
  apply Fin.ext
  match a with
  | ⟨0, _⟩ => show win0_10.index t (0 : Fin 2) * 1 + 1 * p.val = _; rw [hi.1]; show 0 * 1 + 1 * p.val = p.val; omega
  | ⟨1, _⟩ => show win0_10.index t (1 : Fin 2) * 400 + 1 * q.val = _; rw [hi.2]; show 0 * 400 + 1 * q.val = q.val; omega

/-- Window 11's block is its whole array at every point. -/
theorem blk11 (c : Dev nD) (t : Fin cfg0.N) (p : Fin 400) (q : Fin 1) :
    (iblk m c 11 t : Vec Ideal S400x1 .f32) (ix2 p q) = (V m c main_v32 : S400x1.Idx → EReal) (ix2 p q) := by
  have hi := idx11 t
  unfold iblk
  rw [View.read_apply]
  show V m c main_v32 _ = V m c main_v32 _
  congr 1
  funext a
  apply Fin.ext
  match a with
  | ⟨0, _⟩ => show win0_11.index t (0 : Fin 2) * 400 + 1 * p.val = _; rw [hi.1]; show 0 * 400 + 1 * p.val = p.val; omega
  | ⟨1, _⟩ => show win0_11.index t (1 : Fin 2) * 1 + 1 * q.val = _; rw [hi.2]; show 0 * 1 + 1 * q.val = q.val; omega

/-- Window 12's block is its whole array at every point. -/
theorem blk12 (c : Dev nD) (t : Fin cfg0.N) (p : Fin 1) (q : Fin 1) :
    (iblk m c 12 t : Vec Ideal S1x1 .f32) (ix2 p q) = (V m c main_v31 : S1x1.Idx → EReal) (ix2 p q) := by
  have hi := idx12 t
  unfold iblk
  rw [View.read_apply]
  show V m c main_v31 _ = V m c main_v31 _
  congr 1
  funext a
  apply Fin.ext
  match a with
  | ⟨0, _⟩ => show win0_12.index t (0 : Fin 2) * 1 + 1 * p.val = _; rw [hi.1]; show 0 * 1 + 1 * p.val = p.val; omega
  | ⟨1, _⟩ => show win0_12.index t (1 : Fin 2) * 1 + 1 * q.val = _; rw [hi.2]; show 0 * 1 + 1 * q.val = q.val; omega

/-- Window 13's block is its whole array at every point. -/
theorem blk13 (c : Dev nD) (t : Fin cfg0.N) (p : Fin 1) (q : Fin 1) :
    (iblk m c 13 t : Vec Ideal S1x1 .f32) (ix2 p q) = (V m c main_v36 : S1x1.Idx → EReal) (ix2 p q) := by
  have hi := idx13 t
  unfold iblk
  rw [View.read_apply]
  show V m c main_v36 _ = V m c main_v36 _
  congr 1
  funext a
  apply Fin.ext
  match a with
  | ⟨0, _⟩ => show win0_13.index t (0 : Fin 2) * 1 + 1 * p.val = _; rw [hi.1]; show 0 * 1 + 1 * p.val = p.val; omega
  | ⟨1, _⟩ => show win0_13.index t (1 : Fin 2) * 1 + 1 * q.val = _; rw [hi.2]; show 0 * 1 + 1 * q.val = q.val; omega

/-! ## What a point writes back -/

/-- The result array: the row function of every batch row, of the arguments and the two gathered arrays. -/
abbrev GK (c : Dev nD) : S16384x1.Idx → EReal :=
  Cert.DeepFM.G (m ((c : Thread nD τ).loc main_arg0))
    (first3K (m ((c : Thread nD τ).loc main_arg1)) (m ((c : Thread nD τ).loc main_arg4)))
    (emb3K (m ((c : Thread nD τ).loc main_arg1)) (m ((c : Thread nD τ).loc main_arg5)))
    (m ((c : Thread nD τ).loc main_arg2)) (m ((c : Thread nD τ).loc main_arg3)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- Row `p` of what point `t` stores is the row function of batch row `1024 t + p`. -/
theorem stored_row (c : Dev nD) (t : Fin cfg0.N) (p : Fin 1024) :
    k0_pay5 (F := Ideal) (k0_pay1 (iblk m c 2 t)) (k0_pay2 (iblk m c 0 t) (iblk m c 1 t) (iblk m c 2 t) (iblk m c 3 t) (iblk m c 4 t) (iblk m c 5 t) (iblk m c 5 t))
        (k0_pay3 (iblk m c 6 t)) (k0_pay4 (iblk m c 0 t)) (iblk m c 7 t) (iblk m c 8 t) (iblk m c 9 t) (iblk m c 10 t) (iblk m c 12 t) (iblk m c 11 t) (iblk m c 13 t) (ix2 p 0)
      = GK m c (ix2 ⟨1024 * t.val + p.val, by have := t.isLt; have := p.isLt; have : cfg0.N = 16 := rfl; omega⟩ 0) := by
  refine (Cert.KernelIdeal.Pay.pay_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) p).trans ?_
  have h0 : (fun k : Fin 13 => (iblk m c 0 t : Vec Ideal S1024x13 .f32) (ix2 p k)) = _ := funext fun k => (blk0 m c t p k).trans (congrFun (V_main_arg0 m c) _)
  have h1 : (fun f : Fin 26 => (iblk m c 1 t : Vec Ideal S1024x26 .f32) (ix2 p f)) = _ := funext fun f => (blk1 m c t p f).trans (V_first m c _ f)
  have h2 : (fun k : Fin 416 => (iblk m c 2 t : Vec Ideal S1024x416 .f32) (ix2 p k)) = _ := funext fun k => (blk2 m c t p k).trans (V_embflat m c _ k)
  have h3 : (fun k : Fin 13 => (iblk m c 3 t : Vec Ideal S13x1 .f32) (ix2 k 0)) = _ := funext fun k => (blk3 m c t k 0).trans (congrFun (V_main_arg2 m c) _)
  have h4 : (iblk m c 4 t : Vec Ideal S1x1 .f32) (ix2 0 0) = _ := (blk4 m c t 0 0).trans (V_bc m c)
  have h5 : (fun (k : Fin 416) (e : Fin 16) => (iblk m c 5 t : Vec Ideal S416x16 .f32) (ix2 k e)) = _ := funext fun k => funext fun e => (blk5 m c t k e).trans (V_sel m c k e)
  have h6 : (fun (k : Fin 13) (j : Fin 400) => (iblk m c 6 t : Vec Ideal S13x400 .f32) (ix2 k j)) = _ := funext fun k => funext fun j => (blk6 m c t k j).trans (V_W1c m c k j)
  have h7 : (fun (k : Fin 416) (j : Fin 400) => (iblk m c 7 t : Vec Ideal S416x400 .f32) (ix2 k j)) = _ := funext fun k => funext fun j => (blk7 m c t k j).trans (V_W1e m c k j)
  have h8 : (fun j : Fin 400 => (iblk m c 8 t : Vec Ideal S1x400 .f32) (ix2 0 j)) = _ := funext fun j => (blk8 m c t 0 j).trans (V_b1 m c j)
  have h9 : (fun (a : Fin 400) (j : Fin 400) => (iblk m c 9 t : Vec Ideal S400x400 .f32) (ix2 a j)) = _ := funext fun a => funext fun j => (blk9 m c t a j).trans (congrFun (V_main_arg8 m c) _)
  have h10 : (fun j : Fin 400 => (iblk m c 10 t : Vec Ideal S1x400 .f32) (ix2 0 j)) = _ := funext fun j => (blk10 m c t 0 j).trans (V_b2 m c j)
  have h11 : (fun j : Fin 400 => (iblk m c 11 t : Vec Ideal S400x1 .f32) (ix2 j 0)) = _ := funext fun j => (blk11 m c t j 0).trans (V_Wh m c j)
  have h12 : (iblk m c 12 t : Vec Ideal S1x1 .f32) (ix2 0 0) = _ := (blk12 m c t 0 0).trans (V_Wfm m c)
  have h13 : (iblk m c 13 t : Vec Ideal S1x1 .f32) (ix2 0 0) = _ := (blk13 m c t 0 0).trans (V_bo m c)
  rw [h0, h1, h2, h3, h4, h5, h6, h7, h8, h9, h10, h11, h12, h13]
  exact Cert.DeepFM.rowK_eq_rowG _ _ (fun f e => emb3K (m ((c : Thread nD τ).loc main_arg1)) (m ((c : Thread nD τ).loc main_arg5)) (ix3 _ f e)) _ _
    (fun k j => m ((c : Thread nD τ).loc main_arg6) (ix2 k j)) _ _ _ (fun k => m ((c : Thread nD τ).loc main_arg10) (ix2 k 0)) _

/-- Point `t` writes block `t` of the result array. -/
theorem flushed_eq (c : Dev nD) (t : Fin cfg0.N) :
    (dats m 0 c).flushed 14 t = ((cfg0.win 14).blk t).view.read (Elt Ideal) (GK m c) := by
  rw [flushed14]
  unfold out0_14
  rw [View.canon_unit_zero hz]
  simp only [View.ld_unit_zero (S := S1024x13) hz, View.ld_unit_zero (S := S1024x26) hz, View.ld_unit_zero (S := S1024x416) hz,
    View.ld_unit_zero (S := S13x1) hz, View.ld_unit_zero (S := S1x1) hz, View.ld_unit_zero (S := S416x16) hz,
    View.ld_unit_zero (S := S13x400) hz, View.ld_unit_zero (S := S416x400) hz, View.ld_unit_zero (S := S1x400) hz,
    View.ld_unit_zero (S := S400x400) hz, View.ld_unit_zero (S := S400x1) hz]
  funext y
  obtain ⟨p, q, rfl⟩ : ∃ (p : Fin 1024) (q : Fin 1), y = ix2 p q := ⟨y 0, y 1, eq_ix2 y⟩
  obtain rfl : q = 0 := Subsingleton.elim _ _
  have hi := idx14 t
  have hemb : ((cfg0.win 14).blk t).view.emb (ix2 p (0 : Fin 1))
      = ix2 (⟨1024 * t.val + p.val, by have := t.isLt; have := p.isLt; have : cfg0.N = 16 := rfl; omega⟩ : Fin 16384) (0 : Fin 1) := by
    funext a
    apply Fin.ext
    match a with
    | ⟨0, _⟩ => show win0_14.index t (0 : Fin 2) * 1024 + 1 * p.val = 1024 * t.val + p.val; rw [hi.1]; omega
    | ⟨1, _⟩ => show win0_14.index t (1 : Fin 2) * 1 + 1 * 0 = 0; rw [hi.2]
  show k0_pay5 (F := Ideal) _ _ _ _ _ _ _ _ _ _ _ (ix2 p 0) = GK m c (((cfg0.win 14).blk t).view.emb (ix2 p 0))
  rw [hemb]
  exact stored_row m c t p

/-- Every row of the result lies in the block of the point `row / 1024`. -/
theorem cover (i : S16384x1.Idx) : ∃ t : Fin cfg0.N, (cfg0.win 14).flush t = true ∧ i ∈ ((cfg0.win 14).blk t).view.set := by
  have h0 : (i 0).val < 16384 := (i 0).isLt
  have h1 : (i 1).val < 1 := (i 1).isLt
  have ht : (i 0).val / 1024 < cfg0.N := by have : cfg0.N = 16 := rfl; omega
  refine ⟨⟨(i 0).val / 1024, ht⟩, flush0_14 _, ?_⟩
  show i ∈ ((View.whole main_v37).slice (win0_14.rect ⟨(i 0).val / 1024, ht⟩)).set
  rw [View.set_slice_whole, Rect.mem_set_unit]
  have hi := idx14 ⟨(i 0).val / 1024, ht⟩
  intro a
  match a with
  | ⟨0, _⟩ =>
    show win0_14.index _ (0 : Fin 2) * 1024 ≤ (i 0).val ∧ (i 0).val < win0_14.index _ (0 : Fin 2) * 1024 + 1024
    rw [hi.1]; show (i 0).val / 1024 * 1024 ≤ (i 0).val ∧ (i 0).val < (i 0).val / 1024 * 1024 + 1024; omega
  | ⟨1, _⟩ =>
    show win0_14.index _ (1 : Fin 2) * 1 ≤ (i 1).val ∧ (i 1).val < win0_14.index _ (1 : Fin 2) * 1 + 1
    rw [hi.2]; omega

/-- So the result array ends at the row function of every batch row. -/
theorem final (c : Dev nD) : (dats m 0 c).arrAt 14 cfg0.N = GK m c :=
  (dats m 0 c).arrAt_eq_of_cover 14 (GK m c) (fun t _ => flushed_eq m c t) cover

/-- The kernel's run, read: the result at `GK`, the arguments unchanged. -/
theorem run : θ_run defs (onTc (τ := τ) (main (F := Ideal))) ⟨m, fun _ => 0, ρ⟩ fun r => ∀ c : Dev nD,
      r.2.mem ((c : Thread nD τ).loc main_v37) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.Final

end
-- ==== Proof.RefValue.lean ====
/-
  The reference's result, row by row.

  The reference gathers the same table rows, sums the first-order entries and the embedding vectors over the 26
  fields (each sum started from the f32 zero, which is the extended real 0), forms the factorization-machine term,
  runs the two-layer network on the concatenated row [continuous, flattened embeddings] and multiplies the fused row
  [fm, hidden] with the output weights. Index by index that is `DeepFM.G` of the argument arrays and of the two
  gathered arrays.
-/
import proofs.«107994_j21732534518459_1_alg».proof.Proof.Gen.ReferenceIdeal.Read
import proofs.«107994_j21732534518459_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx Idealize.SL.Sem
open scoped BigOperators

/- The twelve argument arrays of the reference, at the extended reals. -/
variable (x0 : (⟨S16384x13, .f32⟩ : BufTy).Contents (Elt Ideal)) (x1 : (⟨S16384x26, .i32⟩ : BufTy).Contents (Elt Ideal))
  (x2 : (⟨S13x1, .f32⟩ : BufTy).Contents (Elt Ideal)) (x3 : (⟨S1, .f32⟩ : BufTy).Contents (Elt Ideal))
  (x4 : (⟨S26x100000x1, .f32⟩ : BufTy).Contents (Elt Ideal)) (x5 : (⟨S26x100000x16, .f32⟩ : BufTy).Contents (Elt Ideal))
  (x6 : (⟨S429x400, .f32⟩ : BufTy).Contents (Elt Ideal)) (x7 : (⟨S400, .f32⟩ : BufTy).Contents (Elt Ideal))
  (x8 : (⟨S400x400, .f32⟩ : BufTy).Contents (Elt Ideal)) (x9 : (⟨S400, .f32⟩ : BufTy).Contents (Elt Ideal))
  (x10 : (⟨S401x1, .f32⟩ : BufTy).Contents (Elt Ideal)) (x11 : (⟨S1, .f32⟩ : BufTy).Contents (Elt Ideal))

/-- The factorization-machine column of the reference at row r. -/
private theorem fm_eq (r : Fin 16384) :
    Read.val_main_v33 (F := Ideal) x0 x1 x2 x3 x4 x5 (ix2 r 0)
      = Cert.DeepFM.fmRow (fun k => x0 (ix2 r k)) (fun f => Read.val_main_v8 (F := Ideal) x1 x4 (ix3 r f 0))
          (fun f e => Read.val_main_v23 (F := Ideal) x1 x5 (ix3 r f e)) (fun k => x2 (ix2 k 0)) (x3 (ix1 0)) := by
  have e9l : ∀ k : Fin 13, Read.lidx_main_v9 (ix2 r 0) k = ix2 r k := fun k =>
    funext fun a => Fin.ext (by match a with | ⟨0, _⟩ => rfl | ⟨1, _⟩ => rfl)
  have e9r : ∀ k : Fin 13, Read.ridx_main_v9 (ix2 r 0) k = ix2 k 0 := fun k =>
    funext fun a => Fin.ext (by match a with | ⟨0, _⟩ => rfl | ⟨1, _⟩ => rfl)
  have e11 : Read.idx_main_v10 (Read.idx_main_v11 (ix2 r 0)) = ix1 0 :=
    funext fun a => Fin.ext (by match a with | ⟨0, _⟩ => rfl)
  have e13 : ∀ k : Fin 26, Read.idx_main_v13 (ix2 r 0) k = ix3 r k 0 := fun k =>
    funext fun a => Fin.ext (by match a with | ⟨0, _⟩ => rfl | ⟨1, _⟩ => rfl | ⟨2, _⟩ => rfl)
  have e29 : ∀ e : Fin 16, Read.idx_main_v29 (Read.idx_main_v30 (ix2 r 0)) e = ix2 r e := fun e =>
    funext fun a => Fin.ext (by match a with | ⟨0, _⟩ => rfl | ⟨1, _⟩ => rfl)
  have e24 : ∀ (e : Fin 16) (f : Fin 26), Read.idx_main_v24 (ix2 r e) f = ix3 r f e := fun e f =>
    funext fun a => Fin.ext (by match a with | ⟨0, _⟩ => rfl | ⟨1, _⟩ => rfl | ⟨2, _⟩ => rfl)
  have e26 : ∀ (e : Fin 16) (f : Fin 26), Read.idx_main_v26 (ix2 r e) f = ix3 r f e := fun e f =>
    funext fun a => Fin.ext (by match a with | ⟨0, _⟩ => rfl | ⟨1, _⟩ => rfl | ⟨2, _⟩ => rfl)
  simp only [Read.val_main_v33_apply, Read.val_main_v14_apply, Read.val_main_v12_apply, Read.val_main_v9_apply,
    Read.val_main_v11_apply, Read.val_main_v10_apply, Read.val_main_v13_apply, Read.val_main_cst_apply,
    Read.val_main_v32_apply, Read.val_main_v31_apply, Read.val_main_cst_6_apply, Read.val_main_v30_apply,
    Read.val_main_v29_apply, Read.val_main_cst_5_apply, Read.val_main_v28_apply, Read.val_main_v27_apply,
    Read.val_main_v26_apply, Read.val_main_cst_4_apply, Read.val_main_v25_apply, Read.val_main_v24_apply,
    Read.val_main_cst_3_apply, e9l, e9r, e11, e13, e29, e24, e26,
    Ideal.addf_def, Ideal.mulf_def, Ideal.subf_def, Ideal.ofBits_def, Ideal.ofBits_zero_f32, zero_add]
  rfl

/-- The network's input row of the reference at row r: the continuous features, then the flattened embeddings. -/
private theorem dnn_eq (r : Fin 16384) (k : Fin 429) :
    Read.val_main_v35 (F := Ideal) x0 x1 x5 (ix2 r k)
      = Cert.DeepFM.dnnRow (fun k => x0 (ix2 r k)) (fun f e => Read.val_main_v23 (F := Ideal) x1 x5 (ix3 r f e)) k := by
  have hk429 : k.val < 429 := k.isLt
  have hr : r.val < 16384 := r.isLt
  unfold Read.val_main_v35 Cert.DeepFM.dnnRow
  by_cases hk : k.val < 13
  · rw [dif_pos hk]
    exact concatenate_pair_apply_left 1 x0 (Read.val_main_v34 (F := Ideal) x1 x5)
      concatenates_S16384x13_S16384x416_S16384x429_d1 (ix2 r k) rfl (ix2 r ⟨k.val, hk⟩)
      (fun b => by match b with | ⟨0, _⟩ => rfl | ⟨1, _⟩ => rfl)
  · rw [dif_neg hk]
    have hk' : k.val - 13 < 416 := by omega
    refine (concatenate_pair_apply_right 1 x0 (Read.val_main_v34 (F := Ideal) x1 x5)
      concatenates_S16384x13_S16384x416_S16384x429_d1 (ix2 r k) rfl rfl (ix2 r ⟨k.val - 13, hk'⟩)
      (fun b hb => by match b with | ⟨0, _⟩ => rfl | ⟨1, _⟩ => exact absurd rfl hb) ?_).trans ?_
    · show (k.val - 13) + 13 = k.val
      omega
    · rw [Read.val_main_v34_apply]
      unfold Cert.DeepFM.flat
      refine congrArg (Read.val_main_v23 (F := Ideal) x1 x5) (funext fun a => Fin.ext ?_)
      match a with
      | ⟨0, _⟩ => show (r.val * 416 + (k.val - 13)) / 416 = r.val; omega
      | ⟨1, _⟩ => show (r.val * 416 + (k.val - 13)) / 16 % 26 = (k.val - 13) / 16; omega
      | ⟨2, _⟩ => show (r.val * 416 + (k.val - 13)) % 16 = (k.val - 13) % 16; omega

/-- The first hidden layer of the reference at row r, unit j. -/
private theorem h1_eq (r : Fin 16384) (j : Fin 400) :
    Read.val_main_v40 (F := Ideal) x0 x1 x5 x6 x7 (ix2 r j)
      = max ((∑ k : Fin 429, Cert.DeepFM.dnnRow (fun k => x0 (ix2 r k))
            (fun f e => Read.val_main_v23 (F := Ideal) x1 x5 (ix3 r f e)) k * x6 (ix2 k j)) + x7 (ix1 j)) 0 := by
  have el : ∀ k : Fin 429, Read.lidx_main_v36 (ix2 r j) k = ix2 r k := fun k =>
    funext fun a => Fin.ext (by match a with | ⟨0, _⟩ => rfl | ⟨1, _⟩ => rfl)
  have er : ∀ k : Fin 429, Read.ridx_main_v36 (ix2 r j) k = ix2 k j := fun k =>
    funext fun a => Fin.ext (by match a with | ⟨0, _⟩ => rfl | ⟨1, _⟩ => rfl)
  have e38 : Read.idx_main_v37 (Read.idx_main_v38 (ix2 r j)) = ix1 j :=
    funext fun a => Fin.ext (by match a with | ⟨0, _⟩ => rfl)
  simp only [Read.val_main_v40_apply, Read.val_main_v39_apply, Read.val_main_v36_apply, Read.val_main_v38_apply,
    Read.val_main_v37_apply, Read.val_main_call0_v0_apply, Read.val_main_call0_cst_apply, el, er, e38, dnn_eq,
    Ideal.addf_def, Ideal.maximumf_def, Ideal.ofBits_def, Ideal.ofBits_zero_f32]

/-- The second hidden layer of the reference at row r, unit j, over the first layer's row. -/
private theorem h2_eq (r : Fin 16384) (j : Fin 400) :
    Read.val_main_v45 (F := Ideal) x0 x1 x5 x6 x7 x8 x9 (ix2 r j)
      = max ((∑ i : Fin 400, Read.val_main_v40 (F := Ideal) x0 x1 x5 x6 x7 (ix2 r i) * x8 (ix2 i j)) + x9 (ix1 j)) 0 := by
  have el : ∀ k : Fin 400, Read.lidx_main_v41 (ix2 r j) k = ix2 r k := fun k =>
    funext fun a => Fin.ext (by match a with | ⟨0, _⟩ => rfl | ⟨1, _⟩ => rfl)
  have er : ∀ k : Fin 400, Read.ridx_main_v41 (ix2 r j) k = ix2 k j := fun k =>
    funext fun a => Fin.ext (by match a with | ⟨0, _⟩ => rfl | ⟨1, _⟩ => rfl)
  have e43 : Read.idx_main_v42 (Read.idx_main_v43 (ix2 r j)) = ix1 j :=
    funext fun a => Fin.ext (by match a with | ⟨0, _⟩ => rfl)
  simp only [Read.val_main_v45_apply, Read.val_main_v44_apply, Read.val_main_v41_apply, Read.val_main_v43_apply,
    Read.val_main_v42_apply, Read.val_main_call1_v0_apply, Read.val_main_call1_cst_apply, el, er, e43,
    Ideal.addf_def, Ideal.maximumf_def, Ideal.ofBits_def, Ideal.ofBits_zero_f32]

/-- The fused row of the reference at row r: the factorization-machine term, then the second hidden layer. -/
private theorem fus_eq (r : Fin 16384) (k : Fin 401) :
    Read.val_main_v46 (F := Ideal) x0 x1 x2 x3 x4 x5 x6 x7 x8 x9 (ix2 r k)
      = if h : k.val = 0 then Read.val_main_v33 (F := Ideal) x0 x1 x2 x3 x4 x5 (ix2 r 0)
        else Read.val_main_v45 (F := Ideal) x0 x1 x5 x6 x7 x8 x9 (ix2 r ⟨k.val - 1, by have := k.isLt; omega⟩) := by
  have hk401 : k.val < 401 := k.isLt
  unfold Read.val_main_v46
  by_cases hk : k.val = 0
  · rw [dif_pos hk]
    exact concatenate_pair_apply_left 1 (Read.val_main_v33 (F := Ideal) x0 x1 x2 x3 x4 x5)
      (Read.val_main_v45 (F := Ideal) x0 x1 x5 x6 x7 x8 x9)
      concatenates_S16384x1_S16384x400_S16384x401_d1 (ix2 r k) rfl (ix2 r 0)
      (fun b => by match b with | ⟨0, _⟩ => rfl | ⟨1, _⟩ => exact hk.symm)
  · rw [dif_neg hk]
    exact concatenate_pair_apply_right 1 (Read.val_main_v33 (F := Ideal) x0 x1 x2 x3 x4 x5)
      (Read.val_main_v45 (F := Ideal) x0 x1 x5 x6 x7 x8 x9)
      concatenates_S16384x1_S16384x400_S16384x401_d1 (ix2 r k) rfl rfl (ix2 r ⟨k.val - 1, by omega⟩)
      (fun b hb => by match b with | ⟨0, _⟩ => rfl | ⟨1, _⟩ => exact absurd rfl hb)
      (by show (k.val - 1) + 1 = k.val; omega)

/-- The reference's result at row r is the row function of that row. -/
private theorem out_eq (r : Fin 16384) :
    Read.val_main_v50 (F := Ideal) x0 x1 x2 x3 x4 x5 x6 x7 x8 x9 x10 x11 (ix2 r 0)
      = Cert.DeepFM.rowG (fun k => x0 (ix2 r k)) (fun f => Read.val_main_v8 (F := Ideal) x1 x4 (ix3 r f 0))
          (fun f e => Read.val_main_v23 (F := Ideal) x1 x5 (ix3 r f e)) (fun k => x2 (ix2 k 0)) (x3 (ix1 0))
          (fun k j => x6 (ix2 k j)) (fun j => x7 (ix1 j)) (fun a j => x8 (ix2 a j)) (fun j => x9 (ix1 j))
          (fun k => x10 (ix2 k 0)) (x11 (ix1 0)) := by
  have el : ∀ k : Fin 401, Read.lidx_main_v47 (ix2 r 0) k = ix2 r k := fun k =>
    funext fun a => Fin.ext (by match a with | ⟨0, _⟩ => rfl | ⟨1, _⟩ => rfl)
  have er : ∀ k : Fin 401, Read.ridx_main_v47 (ix2 r 0) k = ix2 k 0 := fun k =>
    funext fun a => Fin.ext (by match a with | ⟨0, _⟩ => rfl | ⟨1, _⟩ => rfl)
  have e49 : Read.idx_main_v48 (Read.idx_main_v49 (ix2 r 0)) = ix1 0 :=
    funext fun a => Fin.ext (by match a with | ⟨0, _⟩ => rfl)
  simp only [Read.val_main_v50_apply, Read.val_main_v47_apply, Read.val_main_v49_apply, Read.val_main_v48_apply,
    el, er, e49, fus_eq, fm_eq, h2_eq, h1_eq, Ideal.addf_def]
  rfl

/-- The reference's result array is the row function of each batch row. -/
theorem res_eq (m : (ℓ : Loc nD τ sig) → Buf (Elt Ideal) ℓ) (c : Dev nD) :
    Cert.ReferenceIdeal.Value.res_out0 (F := Ideal) m c
      = Cert.DeepFM.G (m ((c.tc : Thread nD τ).loc main_arg0))
          (Cert.ReferenceIdeal.Read.val_main_v8 (F := Ideal) (m ((c.tc : Thread nD τ).loc main_arg1)) (m ((c.tc : Thread nD τ).loc main_arg4)))
          (Cert.ReferenceIdeal.Read.val_main_v23 (F := Ideal) (m ((c.tc : Thread nD τ).loc main_arg1)) (m ((c.tc : Thread nD τ).loc main_arg5)))
          (m ((c.tc : Thread nD τ).loc main_arg2)) (m ((c.tc : Thread nD τ).loc main_arg3)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := by
  refine (Read.val_main_v50_eq (F := Ideal) m c).trans ?_
  funext i
  obtain ⟨r, q, rfl⟩ : ∃ (r : Fin 16384) (q : Fin 1), i = ix2 r q := ⟨i 0, i 1, eq_ix2 i⟩
  obtain rfl : q = 0 := Subsingleton.elim _ _
  exact out_eq _ _ _ _ _ _ _ _ _ _ _ _ r

end Cert.ReferenceIdeal.RefValue

end
-- ==== Proof.lean ====
/-
  A DeepFM forward pass: a tiled kernel against its plain reference, over the extended reals.

  Both programs gather one row of each of 26 embedding tables per batch row (the same host operations on both sides).
  The kernel then works on 16 row tiles of 1024 batch rows: it sums embeddings over the fields by multiplying the
  flattened [1024, 416] block with a fixed 0/1 selector matrix, and it applies the two weight matrices that the
  reference multiplies with concatenated rows as two separate products each (429 = 13 + 416, 401 = 1 + 400). The
  reference sums over the field axis directly and concatenates.

  At the extended reals the two are one function, and no finiteness is needed for it: x · 1 = x, x · 0 = 0 and
  0 + x = x hold at the infinities too, and splitting a finite sum where a concatenation joins uses only
  associativity and commutativity of addition. The common value is `DeepFM.G` (Proof/Spec.lean); the law between
  the two arrangements of a row is Proof/SpecLaw.lean; the kernel's side is Proof/KPayload.lean (the stored column
  at a row), Proof/KWindows.lean (what @main prepared for each window) and Proof/KFinal.lean (blocks to array); the
  reference's side is Proof/RefValue.lean. The frames of the two kernel programs and the reference's run are
  generated. The ideal pass rewrote nothing, so `preserves` has nothing to state.
-/
import proofs.«107994_j21732534518459_1_alg».proof.Defs
import proofs.«107994_j21732534518459_1_alg».proof.Proof.Gen.Kernel
import proofs.«107994_j21732534518459_1_alg».proof.Proof.Gen.Kernel.Skeleton
import proofs.«107994_j21732534518459_1_alg».proof.Proof.Gen.Kernel.Launch
import proofs.«107994_j21732534518459_1_alg».proof.Proof.Gen.Kernel.Points
import proofs.«107994_j21732534518459_1_alg».proof.Proof.Gen.Kernel.Frame
import proofs.«107994_j21732534518459_1_alg».proof.Proof.Gen.KernelIdeal
import proofs.«107994_j21732534518459_1_alg».proof.Proof.Gen.KernelIdeal.Skeleton
import proofs.«107994_j21732534518459_1_alg».proof.Proof.Gen.KernelIdeal.Launch
import proofs.«107994_j21732534518459_1_alg».proof.Proof.Gen.KernelIdeal.Points
import proofs.«107994_j21732534518459_1_alg».proof.Proof.Gen.KernelIdeal.Frame
import proofs.«107994_j21732534518459_1_alg».proof.Proof.Gen.ReferenceIdeal
import proofs.«107994_j21732534518459_1_alg».proof.Proof.Gen.Pre_finite_inputs
import proofs.«107994_j21732534518459_1_alg».proof.Proof.Gen.KernelIdeal.Value
import proofs.«107994_j21732534518459_1_alg».proof.Proof.Gen.ReferenceIdeal.Run
import proofs.«107994_j21732534518459_1_alg».proof.Proof.Gen.ReferenceIdeal.Read
import proofs.«107994_j21732534518459_1_alg».proof.Proof.KFinal
import proofs.«107994_j21732534518459_1_alg».proof.Proof.RefValue
import Idealize.ShloMosaic.Adequacy
import Idealize.ShloMosaic.Init

noncomputable section

namespace Cert.Proof

open Idealize.ShloMosaic Idealize.ShloMosaic.TcCoe Idealize.SL.Sem

/-- The gathered first-order entries are one term in both programs: the same operations of the same arguments. -/
theorem first_eq (x1) (x4) :
    Cert.KernelIdeal.Win.first3K x1 x4 = Cert.ReferenceIdeal.Read.val_main_v8 (F := Ideal) x1 x4 := by
  unfold Cert.KernelIdeal.Win.first3K Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0
  rfl

/-- The gathered embedding vectors likewise. -/
theorem emb_eq (x1) (x5) :
    Cert.KernelIdeal.Win.emb3K x1 x5 = Cert.ReferenceIdeal.Read.val_main_v23 (F := Ideal) x1 x5 := by
  unfold Cert.KernelIdeal.Win.emb3K Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c_1 Cert.ReferenceIdeal.Read.val_main_c_2
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the row function of every batch row of the (agreeing) arguments. -/
theorem algebraic : Cert.algebraic_KernelIdeal_ReferenceIdeal := by
  intro m ρ m' ρ' _ hagree
  refine ⟨fun c => Cert.KernelIdeal.Final.GK m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  refine (Cert.ReferenceIdeal.RefValue.res_eq m' c).trans ?_
  rw [e0, e1, e2, e3, e4, e5, e6, e7, e8, e9, e10, e11, ← first_eq, ← emb_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
